-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S10000x128 : Shape := ⟨2, ![10000, 128]⟩
abbrev S10000x1 : Shape := ⟨2, ![10000, 1]⟩
abbrev S1x128 : Shape := ⟨2, ![1, 128]⟩
abbrev S1024x128 : Shape := ⟨2, ![1024, 128]⟩
abbrev S100000x1 : Shape := ⟨2, ![100000, 1]⟩
abbrev S1024 : Shape := ⟨1, ![1024]⟩
abbrev S1024x1 : Shape := ⟨2, ![1024, 1]⟩
abbrev S1x2 : Shape := ⟨2, ![1, 2]⟩
abbrev S1024x2 : Shape := ⟨2, ![1024, 2]⟩

abbrev nBuf : Space → Nat
  | .hbm => 102
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1700000x1, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S_, .f32⟩
  | .hbm, ⟨85, _⟩ => ⟨S1024x128, .f32⟩
  | .hbm, ⟨86, _⟩ => ⟨S100000x1, .i32⟩
  | .hbm, ⟨87, _⟩ => ⟨S1024x128, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S1024, .f32⟩
  | .hbm, ⟨92, _⟩ => ⟨S100000x1, .i32⟩
  | .hbm, ⟨93, _⟩ => ⟨S1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1024x1, .f32⟩
  | .hbm, ⟨98, _⟩ => ⟨S1024x128, .f32⟩
  | .hbm, ⟨99, _⟩ => ⟨S1024x128, .f32⟩
  | .hbm, ⟨100, _⟩ => ⟨S1x2, .f32⟩
  | .hbm, ⟨101, _⟩ => ⟨S1024x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S10000x128, .f32⟩
  | .local _ .vmem, ⟨26, _⟩ => ⟨S10000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1024x128, .f32⟩
  | .local _ .vmem, ⟨33, _⟩ => ⟨S128x2, .f32⟩
  | .local _ .vmem, ⟨34, _⟩ => ⟨S1x2, .f32⟩
  | .local _ .vmem, ⟨35, _⟩ => ⟨S1024x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg3_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem2_0 : DmaSem sig := 34
abbrev cc6_sem3_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1024x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S2_S1x2 : S2.ShapeCasts S1x2
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1700000x128.size a
  hwx4_0 : ∀ i : grid4.Coords, EltTy.bits .f32 = 32 ∨ (Rect.block (s := S1700000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S1700000x128.size a
  hwx4_2 : ∀ i : grid4.Coords, EltTy.bits .f32 = 32 ∨ (Rect.block (s := S1700000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1024x128.size a ≤ S1024x128.size a
  hwx6_0 : ∀ i : grid6.Coords, EltTy.bits .f32 = 32 ∨ (Rect.block (s := S1024x128) S1024x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1024x2.size a ≤ S1024x2.size a
  hwx6_3 : ∀ i : grid6.Coords, EltTy.bits .f32 = 32 ∨ (Rect.block (s := S1024x2) S1024x2.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v70) S1024x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72) S1024x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1024x128 : Shape := ⟨2, ![1024, 128]⟩
abbrev S100000x1 : Shape := ⟨2, ![100000, 1]⟩
abbrev S1024 : Shape := ⟨1, ![1024]⟩
abbrev S1024x1 : Shape := ⟨2, ![1024, 1]⟩
abbrev S1024x2 : Shape := ⟨2, ![1024, 2]⟩
abbrev S1x2 : Shape := ⟨2, ![1, 2]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x128, .f32⟩
  | .hbm, ⟨82, _⟩ => ⟨S1700000x1, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S1024x128, .f32⟩
  | .hbm, ⟨97, _⟩ => ⟨S100000x1, .i32⟩
  | .hbm, ⟨98, _⟩ => ⟨S1024x128, .f32⟩
  | .hbm, ⟨99, _⟩ => ⟨S_, .f32⟩
  | .hbm, ⟨100, _⟩ => ⟨S100000, .f32⟩
  | .hbm, ⟨101, _⟩ => ⟨S_, .f32⟩
  | .hbm, ⟨102, _⟩ => ⟨S1024, .f32⟩
  | .hbm, ⟨103, _⟩ => ⟨S100000x1, .i32⟩
  | .hbm, ⟨104, _⟩ => ⟨S1024, .f32⟩
  | .hbm, ⟨105, _⟩ => ⟨S_, .f32⟩
  | .hbm, ⟨106, _⟩ => ⟨S1024, .f32⟩
  | .hbm, ⟨107, _⟩ => ⟨S1024, .f32⟩
  | .hbm, ⟨108, _⟩ => ⟨S1024x1, .f32⟩
  | .hbm, ⟨109, _⟩ => ⟨S1024x128, .f32⟩
  | .hbm, ⟨110, _⟩ => ⟨S1024x128, .f32⟩
  | .hbm, ⟨111, _⟩ => ⟨S1024x2, .f32⟩
  | .hbm, ⟨112, _⟩ => ⟨S1x2, .f32⟩
  | .hbm, ⟨113, _⟩ => ⟨S1024x2, .f32⟩
  | .hbm, ⟨114, _⟩ => ⟨S1024x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S1024x128_S100000x1_S100000x128_1_0_0_1_wf : ScatterDims.WF S1024x128 S100000x1 S100000x128 [1] [0] [0] 1
  scatter_S1024_S100000x1_S100000_n_0_0_1_wf : ScatterDims.WF S1024 S100000x1 S100000 [] [0] [0] 1
  dot_S1024x128_S128x2_S1024x2_1_0_0_1_n_n_wf : DotDims.WF S1024x128 S128x2 S1024x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

class Facts : Prop extends Facts₀ where

variable [Facts]
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.Payloads.lean ====
/-
  What each kernel body stores, read at one entry of its block.
  * The two projections multiply a 5000 × 128 block of rows by a 128 × 128 weight matrix: narrowing both operands to
    the 16-bit format is the identity on exact values, the product is accumulated into zeros, so entry (p, q) is the
    sum over k of block (p, k) · weight (k, q).  (The second projection first casts its block to its own shape.)
  * The two edge-scaling bodies multiply a 10000 × 128 block by a 10000 × 1 column stretched along the second axis:
    entry (p, q) is block (p, q) · column (p, 0).
  * The two bias bodies add a 1 × 128 row stretched along the first axis and cut below at zero:
    entry (p, q) is max (block (p, q) + row (0, q)) 0.
  * The head multiplies the 1024 × 128 pooled matrix by a 128 × 2 matrix and adds a 1 × 2 row:
    entry (p, q) is (sum over k of pooled (p, k) · weight (k, q)) + row (0, q).
-/
import proofs.«111700_j20091857011065_1_alg».proof.Proof.Gen.KernelIdeal.Skeleton
import proofs.«111700_j20091857011065_1_alg».proof.Proof.LibRealFactor
import Idealize.ShloMosaic.Lib.Pipeline.Value
import Idealize.ShloMosaic.Lib.ValueIdx

noncomputable section

namespace Cert.KernelIdeal.Payloads

open Cert.KernelIdeal Cert.KernelIdeal.Gen Idealize.ShloMosaic Idealize.ShloMosaic.ValueIdx

/-- A column stretched along the second axis reads its row's one entry. -/
theorem stretch_col {a b : Nat} (hb : a ≠ 1) (v : (⟨2, ![a, 1]⟩ : Shape).Idx → EReal) (h : (⟨2, ![a, 1]⟩ : Shape).Broadcasts ⟨2, ![a, b]⟩)
    (p : Fin a) (q : Fin b) : broadcastTo ⟨2, ![a, b]⟩ v h (ix2 p q) = v (ix2 p (0 : Fin 1)) :=
  broadcastTo_apply v h (ix2 p q) (ix2 p (0 : Fin 1)) fun x => by
    match x with
    | ⟨0, _⟩ => show p.val = if a = 1 then 0 else p.val; rw [if_neg hb]
    | ⟨1, _⟩ => show (0 : ℕ) = if (1 : ℕ) = 1 then 0 else q.val; rw [if_pos rfl]

/-- A row stretched along the first axis reads its column's one entry. -/
theorem stretch_row {a b : Nat} (hb : b ≠ 1) (v : (⟨2, ![1, b]⟩ : Shape).Idx → EReal) (h : (⟨2, ![1, b]⟩ : Shape).Broadcasts ⟨2, ![a, b]⟩)
    (p : Fin a) (q : Fin b) : broadcastTo ⟨2, ![a, b]⟩ v h (ix2 p q) = v (ix2 (0 : Fin 1) q) :=
  broadcastTo_apply v h (ix2 p q) (ix2 (0 : Fin 1) q) fun x => by
    match x with
    | ⟨0, _⟩ => show (0 : ℕ) = if (1 : ℕ) = 1 then 0 else p.val; rw [if_pos rfl]
    | ⟨1, _⟩ => show q.val = if b = 1 then 0 else q.val; rw [if_neg hb]

theorem pay0_at (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.Fold.matmul_zero_rows dot_S5000x128_S128x128_S5000x128_1_0_0_1_n_n rfl rfl rfl rfl rfl rfl none _ _ p q

theorem pay3_at (x0 : Vec Ideal S5000x128 .f32) (x1 : Vec Ideal S128x128 .f32) (p : Fin 5000) (q : Fin 128) :
    k3_pay1 x0 x1 (ix2 p q) = ∑ k : Fin 128, x0 (ix2 p k) * x1 (ix2 k q) := by
  unfold k3_pay1
  rw [shapeCast_self]
  exact Cert.Fold.matmul_zero_rows dot_S5000x128_S128x128_S5000x128_1_0_0_1_n_n rfl rfl rfl rfl rfl rfl none _ _ p q

theorem pay1_at (x0 : Vec Ideal S10000x128 .f32) (x1 : Vec Ideal S10000x1 .f32) (p : Fin 10000) (q : Fin 128) :
    k1_pay1 x0 x1 (ix2 p q) = x0 (ix2 p q) * x1 (ix2 p (0 : Fin 1)) := by
  unfold k1_pay1
  rw [shapeCast_self, shapeCast_self]
  show x0 (ix2 p q) * broadcastTo S10000x128 x1 _ (ix2 p q) = _
  rw [stretch_col (by decide) x1 _ p q]

theorem pay4_at (x0 : Vec Ideal S10000x128 .f32) (x1 : Vec Ideal S10000x1 .f32) (p : Fin 10000) (q : Fin 128) :
    k4_pay1 x0 x1 (ix2 p q) = x0 (ix2 p q) * x1 (ix2 p (0 : Fin 1)) := by
  unfold k4_pay1
  rw [shapeCast_self, shapeCast_self]
  show x0 (ix2 p q) * broadcastTo S10000x128 x1 _ (ix2 p q) = _
  rw [stretch_col (by decide) x1 _ p q]

theorem pay2_at (x0 : Vec Ideal S5000x128 .f32) (x1 : Vec Ideal S1x128 .f32) (p : Fin 5000) (q : Fin 128) :
    k2_pay1 x0 x1 (ix2 p q) = max (x0 (ix2 p q) + x1 (ix2 (0 : Fin 1) q)) (Ideal.ofBits .f32 0x00000000#32) := by
  unfold k2_pay1
  rw [shapeCast_self, shapeCast_self]
  show max (x0 (ix2 p q) + broadcastTo S5000x128 x1 _ (ix2 p q)) _ = _
  rw [stretch_row (by decide) x1 _ p q]
  rfl

theorem pay5_at (x0 : Vec Ideal S5000x128 .f32) (x1 : Vec Ideal S1x128 .f32) (p : Fin 5000) (q : Fin 128) :
    k5_pay1 x0 x1 (ix2 p q) = max (x0 (ix2 p q) + x1 (ix2 (0 : Fin 1) q)) (Ideal.ofBits .f32 0x00000000#32) := by
  unfold k5_pay1
  rw [shapeCast_self, shapeCast_self]
  show max (x0 (ix2 p q) + broadcastTo S5000x128 x1 _ (ix2 p q)) _ = _
  rw [stretch_row (by decide) x1 _ p q]
  rfl

theorem pay6_at (x0 : Vec Ideal S1024x128 .f32) (x1 : Vec Ideal S128x2 .f32) (x2 : Vec Ideal S1x2 .f32) (p : Fin 1024) (q : Fin 2) :
    k6_pay1 x0 x1 x2 (ix2 p q) = (∑ k : Fin 128, x0 (ix2 p k) * x1 (ix2 k q)) + x2 (ix2 (0 : Fin 1) q) := by
  unfold k6_pay1
  rw [shapeCast_self, shapeCast_self]
  show matmul (F := Ideal) dot_S1024x128_S128x2_S1024x2_1_0_0_1_n_n none _ _ _ (ix2 p q) + broadcastTo S1024x2 x2 _ (ix2 p q) = _
  rw [stretch_row (by decide) x2 _ p q]
  exact congrArg (· + x2 (ix2 (0 : Fin 1) q))
    (Cert.Fold.matmul_zero_rows dot_S1024x128_S128x2_S1024x2_1_0_0_1_n_n rfl rfl rfl rfl rfl rfl none _ _ p q)

end Cert.KernelIdeal.Payloads

end
-- ==== Proof.Region0.lean ====
/-
  The first projection of the node features.  The region's grid has 20 points; point t stages rows
  5000 t … 5000 t + 4999 of the feature matrix and the whole 128 × 128 weight matrix, multiplies them and writes
  rows 5000 t … 5000 t + 4999 of the result.  Entry (r, q) of the block at point t is the sum over k of
  feature (5000 t + r, k) · weight (k, q): the block of ONE whole-array function, the plain matrix product.  The 20
  blocks tile the 100000 rows, so after the region the result array IS the matrix product of the two arrays as the
  region found them.
-/
import proofs.«111700_j20091857011065_1_alg».proof.Proof.Gen.KernelIdeal.Frame
import proofs.«111700_j20091857011065_1_alg».proof.Proof.Payloads
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The matrix product of a 100000 × 128 array with a 128 × 128 array, entry by entry. -/
def prod (x : S100000x128.Idx → EReal) (w : S128x128.Idx → EReal) : S100000x128.Idx → EReal :=
  fun i => ∑ k : Fin 128, x (ix2 (⟨(i 0).val, idx2_lt0 i⟩ : Fin 100000) k) * w (ix2 k (⟨(i 1).val, idx2_lt1 i⟩ : Fin 128))

/-- The printed index maps over the 20 points: the row block of the feature window and of the result window is the
    point's number, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the matrix product of the two arrays as the region finds them. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = prod (V c main_arg0) (V c main_arg3) (((cfg0.win 2).blk t).view.emb (ix2 p q))
  rw [Payloads.pay0_at]
  unfold prod
  refine Finset.sum_congr rfl fun k _ => ?_
  have h0 : iblk0 V c 0 t (ix2 p k) = V c main_arg0 (ix2 (⟨((((cfg0.win 2).blk t).view.emb (ix2 p q)) 0).val, idx2_lt0 _⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : iblk0 V c 1 t (ix2 k q) = V c main_arg3 (ix2 k (⟨((((cfg0.win 2).blk t).view.emb (ix2 p q)) 1).val, idx2_lt1 _⟩ : Fin 128)) := by
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Row r lies in the block of point r / 5000: the 20 blocks cover the array. -/
theorem cover (i : S100000x128.Idx) : ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  let t : Fin cfg0.N := ⟨(i 0).val / 5000, by rw [hN]; omega⟩
  obtain ⟨e0, e1, e2, e3, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array is the matrix product of its two input arrays as it found them. -/
theorem arr (c : Dev nD) : (dat0 V c).arrAt 2 cfg0.N = prod (V c main_arg0) (V c main_arg3) :=
  (dat0 V c).arrAt_eq_of_cover 2 _ (fun t _ => flushed_eq V c t) cover

end Cert.KernelIdeal.Region0

end
-- ==== Proof.Region1.lean ====
/-
  The per-edge scaling of the gathered rows.  The region's grid has 170 points; point t stages rows
  10000 t … 10000 t + 9999 of the gathered 1700000 × 128 matrix and the same rows of the 1700000 × 1 column of edge
  weights, multiplies each row by its weight and writes the same rows of the result.  Entry (r, q) of the block at
  point t is gathered (10000 t + r, q) · weight (10000 t + r, 0): the block of ONE whole-array function.  The 170
  blocks tile the 1700000 rows, so after the region the result array is that function of the two arrays as the
  region found them.
-/
import proofs.«111700_j20091857011065_1_alg».proof.Proof.Gen.KernelIdeal.Frame
import proofs.«111700_j20091857011065_1_alg».proof.Proof.Payloads
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every row of a 1700000 × 128 array multiplied by its entry of a 1700000 × 1 column. -/
def scale (g : S1700000x128.Idx → EReal) (n : S1700000x1.Idx → EReal) : S1700000x128.Idx → EReal :=
  fun i => g i * n (ix2 (⟨(i 0).val, idx2_lt0 i⟩ : Fin 1700000) (0 : Fin 1))

/-- The printed index maps over the 170 points: every window's row block is the point's number, its column block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled array. -/
theorem flushed_eq (c : Dev nD) (t : Fin cfg1.N) :
    (dat1 V c).flushed 2 t = ((cfg1.win 2).blk t).view.read (Elt Ideal) (scale (V c main_v38) (V c main_v30)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k1_pay1 (iblk1 V c 0 t) (iblk1 V c 1 t) (ix2 p q) = scale (V c main_v38) (V c main_v30) (((cfg1.win 2).blk t).view.emb (ix2 p q))
  rw [Payloads.pay1_at]
  unfold scale
  have h0 : iblk1 V c 0 t (ix2 p q) = V c main_v38 (((cfg1.win 2).blk t).view.emb (ix2 p q)) := by
    show V c main_v38 (((cfg1.win 0).blk t).view.emb (ix2 p q)) = _
    refine congrArg (V c main_v38) ?_
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : iblk1 V c 1 t (ix2 p (0 : Fin 1)) = V c main_v30 (ix2 (⟨((((cfg1.win 2).blk t).view.emb (ix2 p q)) 0).val, idx2_lt0 _⟩ : Fin 1700000) (0 : Fin 1)) := by
    show V c main_v30 (((cfg1.win 1).blk t).view.emb (ix2 p (0 : Fin 1))) = _
    refine congrArg (V c main_v30) ?_
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  rw [h0, h1]

/-- An index of the result array is in point t's block iff each coordinate is in the block's range on its axis. -/
theorem mem_blk (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v39).slice (win1_2.rect t)).set ↔ _
  rw [View.set_slice_whole, Rect.mem_set_unit]
  exact Iff.rfl

/-- Row r lies in the block of point r / 10000: the 170 blocks cover the array. -/
theorem cover (i : S1700000x128.Idx) : ∃ t : Fin cfg1.N, (cfg1.win 2).flush t = true ∧ i ∈ ((cfg1.win 2).blk t).view.set := by
  have hi0 : (i 0).val < 1700000 := idx2_lt0 i
  have hi1 : (i 1).val < 128 := idx2_lt1 i
  have hN : cfg1.N = 170 := N_1
  let t : Fin cfg1.N := ⟨(i 0).val / 10000, by rw [hN]; omega⟩
  obtain ⟨e0, e1, e2, e3, e4, e5⟩ := idx_facts t
  have e4' : win1_2.index t (0 : Fin 2) = (i 0).val / 10000 := e4
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- After the region its result array is the scaled array of its two input arrays as it found them. -/
theorem arr (c : Dev nD) : (dat1 V c).arrAt 2 cfg1.N = scale (V c main_v38) (V c main_v30) :=
  (dat1 V c).arrAt_eq_of_cover 2 _ (fun t _ => flushed_eq V c t) cover

end Cert.KernelIdeal.Region1

end
-- ==== Proof.Bridge.lean ====
/-
  The kernel's whole-array functions against the host operations that compute the same arrays in the reference.
  * A vector of length A reshaped to an A × 1 column, and the same vector broadcast to an A × 1 column and then along
    the second axis, both read the vector's entry r in row r.  So scaling the rows of a matrix by the reshaped column
    is the elementwise product with the twice-broadcast vector.
  * A vector of length B reshaped to a 1 × B row, and the same vector broadcast to a 1 × B row and then along the first
    axis, both read the vector's entry q in column q.  So adding the reshaped row to every row and cutting at zero is
    the elementwise maximum of the sum with the broadcast zero.
  * The sum over k of x (r, k) · w (k, q) is the host's matrix product read at (r, q).
-/
import proofs.«111700_j20091857011065_1_alg».proof.Proof.LibRealFactor
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx

variable {A B K : Nat} {α : Type}

/-- A length-A vector reshaped to an A × 1 column reads entry r in row r. -/
theorem col_of_vec (n : (⟨1, ![A]⟩ : Shape).Idx → α) (h : (⟨1, ![A]⟩ : Shape).ShapeCasts ⟨2, ![A, 1]⟩) (r : Fin A) (u : Fin 1) :
    shapeCast ⟨2, ![A, 1]⟩ n h (ix2 r u) = n (ix1 r) :=
  shapeCast_apply n h _ _ (by
    have hu : u.val = 0 := by omega
    rw [Shape.rowMajor_val_two, Shape.rowMajor_val_one]
    show r.val = r.val * 1 + u.val
    omega)

/-- A length-A vector broadcast to an A × 1 column (its axis sent to axis 0) reads entry r in row r. -/
theorem bcast_vec_col (hA : A ≠ 1) (n : (⟨1, ![A]⟩ : Shape).Idx → α)
    (h : (⟨1, ![A]⟩ : Shape).BroadcastsInDim ⟨2, ![A, 1]⟩ ![0]) (r : Fin A) (u : Fin 1) :
    broadcastInDim ⟨2, ![A, 1]⟩ ![0] h n (ix2 r u) = n (ix1 r) :=
  broadcastInDim_apply ![0] h n (ix2 r u) (ix1 r) fun a => by
    match a with
    | ⟨0, _⟩ => show r.val = if A = 1 then 0 else r.val; rw [if_neg hA]

/-- An A × 1 column broadcast along the second axis reads its row's one entry. -/
theorem bcast_col_cols (hA : A ≠ 1) (y : (⟨2, ![A, 1]⟩ : Shape).Idx → α)
    (h : (⟨2, ![A, 1]⟩ : Shape).BroadcastsInDim ⟨2, ![A, B]⟩ ![0, 1]) (r : Fin A) (q : Fin B) :
    broadcastInDim ⟨2, ![A, B]⟩ ![0, 1] h y (ix2 r q) = y (ix2 r (0 : Fin 1)) :=
  broadcastInDim_apply ![0, 1] h y (ix2 r q) (ix2 r (0 : Fin 1)) fun a => by
    match a with
    | ⟨0, _⟩ => show r.val = if A = 1 then 0 else r.val; rw [if_neg hA]
    | ⟨1, _⟩ => show (0 : ℕ) = if (1 : ℕ) = 1 then 0 else q.val; rw [if_pos rfl]

/-- A length-B vector broadcast to a 1 × B row (its axis sent to axis 1) reads entry q in column q. -/
theorem bcast_vec_row (hB : B ≠ 1) (b : (⟨1, ![B]⟩ : Shape).Idx → α)
    (h : (⟨1, ![B]⟩ : Shape).BroadcastsInDim ⟨2, ![1, B]⟩ ![1]) (u : Fin 1) (q : Fin B) :
    broadcastInDim ⟨2, ![1, B]⟩ ![1] h b (ix2 u q) = b (ix1 q) :=
  broadcastInDim_apply ![1] h b (ix2 u q) (ix1 q) fun a => by
    match a with
    | ⟨0, _⟩ => show q.val = if B = 1 then 0 else q.val; rw [if_neg hB]

/-- A 1 × B row broadcast along the first axis reads its column's one entry. -/
theorem bcast_row_rows (hB : B ≠ 1) (y : (⟨2, ![1, B]⟩ : Shape).Idx → α)
    (h : (⟨2, ![1, B]⟩ : Shape).BroadcastsInDim ⟨2, ![A, B]⟩ ![0, 1]) (r : Fin A) (q : Fin B) :
    broadcastInDim ⟨2, ![A, B]⟩ ![0, 1] h y (ix2 r q) = y (ix2 (0 : Fin 1) q) :=
  broadcastInDim_apply ![0, 1] h y (ix2 r q) (ix2 (0 : Fin 1) q) fun a => by
    match a with
    | ⟨0, _⟩ => show (0 : ℕ) = if (1 : ℕ) = 1 then 0 else r.val; rw [if_pos rfl]
    | ⟨1, _⟩ => show q.val = if B = 1 then 0 else q.val; rw [if_neg hB]

/-- A scalar broadcast to any shape reads the scalar everywhere. -/
theorem bcast_scalar (t : Shape) (h : (⟨0, ![]⟩ : Shape).BroadcastsInDim t ![]) (x : (⟨0, ![]⟩ : Shape).Idx → α) (j : t.Idx) :
    broadcastInDim t ![] h x j = x ix0 :=
  broadcastInDim_apply ![] h x j ix0 fun a => a.elim0

/-- Scaling row r of a matrix by entry (r, 0) of the reshaped vector is the elementwise product with the vector broadcast to
    a column and then along the rows. -/
theorem scale_bridge (hA : A ≠ 1) (g : FVec Ideal ⟨2, ![A, B]⟩ .f32) (n : FVec Ideal ⟨1, ![A]⟩ .f32)
    (hs : (⟨1, ![A]⟩ : Shape).ShapeCasts ⟨2, ![A, 1]⟩)
    (h1 : (⟨1, ![A]⟩ : Shape).BroadcastsInDim ⟨2, ![A, 1]⟩ ![0])
    (h2 : (⟨2, ![A, 1]⟩ : Shape).BroadcastsInDim ⟨2, ![A, B]⟩ ![0, 1]) :
    (fun i : (⟨2, ![A, B]⟩ : Shape).Idx => g i * shapeCast ⟨2, ![A, 1]⟩ n hs (ix2 (⟨(i 0).val, idx2_lt0 i⟩ : Fin A) (0 : Fin 1)))
      = mulf g (broadcastInDim ⟨2, ![A, B]⟩ ![0, 1] h2 (broadcastInDim ⟨2, ![A, 1]⟩ ![0] h1 n)) := by
  funext i
  obtain ⟨r, q, rfl⟩ : ∃ (r : Fin A) (q : Fin B), i = ix2 r q := ⟨i 0, i 1, eq_ix2 i⟩
  show g (ix2 r q) * shapeCast ⟨2, ![A, 1]⟩ n hs (ix2 r (0 : Fin 1))
    = g (ix2 r q) * broadcastInDim ⟨2, ![A, B]⟩ ![0, 1] h2 (broadcastInDim ⟨2, ![A, 1]⟩ ![0] h1 n) (ix2 r q)
  rw [col_of_vec, bcast_col_cols hA, bcast_vec_col hA]

/-- Adding entry (0, q) of the reshaped vector in column q and cutting at zero is the elementwise maximum, with the broadcast
    zero, of the sum with the vector broadcast to a row and then along the columns. -/
theorem biasCut_bridge (hB : B ≠ 1) (a : FVec Ideal ⟨2, ![A, B]⟩ .f32) (b : FVec Ideal ⟨1, ![B]⟩ .f32)
    (hs : (⟨1, ![B]⟩ : Shape).ShapeCasts ⟨2, ![1, B]⟩)
    (h1 : (⟨1, ![B]⟩ : Shape).BroadcastsInDim ⟨2, ![1, B]⟩ ![1])
    (h2 : (⟨2, ![1, B]⟩ : Shape).BroadcastsInDim ⟨2, ![A, B]⟩ ![0, 1])
    (h0 : (⟨0, ![]⟩ : Shape).BroadcastsInDim ⟨2, ![A, B]⟩ ![]) :
    (fun i : (⟨2, ![A, B]⟩ : Shape).Idx => max (a i + shapeCast ⟨2, ![1, B]⟩ b hs (ix2 (0 : Fin 1) (⟨(i 1).val, idx2_lt1 i⟩ : Fin B))) (Ideal.ofBits .f32 0x00000000#32))
      = maximumf (addf a (broadcastInDim ⟨2, ![A, B]⟩ ![0, 1] h2 (broadcastInDim ⟨2, ![1, B]⟩ ![1] h1 b)))
          (broadcastInDim ⟨2, ![A, B]⟩ ![] h0 (constant (F := Ideal) ⟨0, ![]⟩ .f32 0x00000000#32)) := by
  funext i
  obtain ⟨r, q, rfl⟩ : ∃ (r : Fin A) (q : Fin B), i = ix2 r q := ⟨i 0, i 1, eq_ix2 i⟩
  show max (a (ix2 r q) + shapeCast ⟨2, ![1, B]⟩ b hs (ix2 (0 : Fin 1) q)) (Ideal.ofBits .f32 0x00000000#32)
    = max (a (ix2 r q) + broadcastInDim ⟨2, ![A, B]⟩ ![0, 1] h2 (broadcastInDim ⟨2, ![1, B]⟩ ![1] h1 b) (ix2 r q))
        (broadcastInDim ⟨2, ![A, B]⟩ ![] h0 (constant (F := Ideal) ⟨0, ![]⟩ .f32 0x00000000#32) (ix2 r q))
  rw [shapeCast_a_1a_apply, bcast_row_rows hB, bcast_vec_row hB, bcast_scalar]
  rfl

/-- The sum over k of x (r, k) · w (k, q) is the host's matrix product at (r, q). -/
theorem prod_bridge (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![A, K]⟩ .f32) (w : FVec Ideal ⟨2, ![K, B]⟩ .f32) :
    (fun i : (⟨2, ![A, B]⟩ : Shape).Idx => ∑ k : Fin K, x (ix2 (⟨(i 0).val, idx2_lt0 i⟩ : Fin A) k) * w (ix2 k (⟨(i 1).val, idx2_lt1 i⟩ : Fin B)))
      = Host.dotGeneral d none x w := by
  funext i
  obtain ⟨r, q, rfl⟩ : ∃ (r : Fin A) (q : Fin B), i = ix2 r q := ⟨i 0, i 1, eq_ix2 i⟩
  rw [Cert.Fold.dotGeneral_rows d h1 h2 h3 h4 h5 h6]
  rfl

/-- The same product plus entry (0, q) of the reshaped vector in column q is the host's product plus the vector broadcast to a
    row and then along the columns. -/
theorem head_bridge (hB : B ≠ 1) (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![A, K]⟩ .f32) (w : FVec Ideal ⟨2, ![K, B]⟩ .f32) (b : FVec Ideal ⟨1, ![B]⟩ .f32)
    (hs : (⟨1, ![B]⟩ : Shape).ShapeCasts ⟨2, ![1, B]⟩)
    (hb1 : (⟨1, ![B]⟩ : Shape).BroadcastsInDim ⟨2, ![1, B]⟩ ![1])
    (hb2 : (⟨2, ![1, B]⟩ : Shape).BroadcastsInDim ⟨2, ![A, B]⟩ ![0, 1]) :
    (fun i : (⟨2, ![A, B]⟩ : Shape).Idx => (∑ k : Fin K, x (ix2 (⟨(i 0).val, idx2_lt0 i⟩ : Fin A) k) * w (ix2 k (⟨(i 1).val, idx2_lt1 i⟩ : Fin B)))
        + shapeCast ⟨2, ![1, B]⟩ b hs (ix2 (0 : Fin 1) (⟨(i 1).val, idx2_lt1 i⟩ : Fin B)))
      = addf (Host.dotGeneral d none x w) (broadcastInDim ⟨2, ![A, B]⟩ ![0, 1] hb2 (broadcastInDim ⟨2, ![1, B]⟩ ![1] hb1 b)) := by
  funext i
  obtain ⟨r, q, rfl⟩ : ∃ (r : Fin A) (q : Fin B), i = ix2 r q := ⟨i 0, i 1, eq_ix2 i⟩
  show (∑ k : Fin K, x (ix2 r k) * w (ix2 k q)) + shapeCast ⟨2, ![1, B]⟩ b hs (ix2 (0 : Fin 1) q)
    = Host.dotGeneral d none x w (ix2 r q) + broadcastInDim ⟨2, ![A, B]⟩ ![0, 1] hb2 (broadcastInDim ⟨2, ![1, B]⟩ ![1] hb1 b) (ix2 r q)
  rw [Cert.Fold.dotGeneral_rows d h1 h2 h3 h4 h5 h6, shapeCast_a_1a_apply, bcast_row_rows hB, bcast_vec_row hB]

end Cert.Bridge

end
-- ==== Proof.FoldA.lean ====
import proofs.«111700_j20091857011065_1_alg».proof.Proof.Gen.KernelIdeal.Frame
import proofs.«111700_j20091857011065_1_alg».proof.Proof.RefRead
import proofs.«111700_j20091857011065_1_alg».proof.Proof.Region0
import proofs.«111700_j20091857011065_1_alg».proof.Proof.Region1
import proofs.«111700_j20091857011065_1_alg».proof.Proof.Bridge
import Idealize.ShloMosaic.Lib.StableHlo.Run

set_option maxRecDepth 16384
-- a buffer read back through several host stretches of about twenty operations each is one declaration
set_option maxHeartbeats 4000000

noncomputable section

/-!
  The kernel program's buffers at its segment boundaries, first part: the index arrays, the degree normalisation, the
  first projection, its gather along the edges and the per-edge scaling.  Every host operation here is the reference's
  own, applied to the same arrays, so each buffer holds the reference's stage of the same name; the two kernel
  regions hold the matrix product and the row scaling, which are the reference's product and elementwise multiply.
-/

namespace Cert.KernelIdeal.Fold

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-! ## After the first host stretch: the source and target index arrays, the degree's sign test and inverse root -/

theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

theorem W1_v6 : W1 m ρ c (Proc.devRef .tc main_v6) = val_main_v6 (F := Ideal) (m ((c : Thread nD τ).loc main_arg1)) := by
  show StableHlo.after hostOps0 (W0 m ρ c) (Proc.devRef .tc main_v6) = _
  after_results
  rfl

theorem W1_v12 : W1 m ρ c (Proc.devRef .tc main_v12) = val_main_v12 (F := Ideal) (m ((c : Thread nD τ).loc main_arg1)) := by
  show StableHlo.after hostOps0 (W0 m ρ c) (Proc.devRef .tc main_v12) = _
  after_results
  rfl

theorem W1_v13 : W1 m ρ c (Proc.devRef .tc main_v13) = val_main_v13 (F := Ideal) (m ((c : Thread nD τ).loc main_arg1)) := by
  show StableHlo.after hostOps0 (W0 m ρ c) (Proc.devRef .tc main_v13) = _
  after_results
  rfl

theorem W1_cst_2 : W1 m ρ c (Proc.devRef .tc main_cst_2) = val_main_cst_2 (F := Ideal) := by
  show StableHlo.after hostOps0 (W0 m ρ c) (Proc.devRef .tc main_cst_2) = _
  after_results
  rfl

/-! ## After the outlined select: the normalising factor of every node -/

theorem W2_v14 : W2 m ρ c (Proc.devRef .tc main_v14) = val_main_v14 (F := Ideal) (m ((c : Thread nD τ).loc main_arg1)) := by
  have h : W2 m ρ c (Proc.devRef .tc main_v14) = select (W1 m ρ c (Proc.devRef .tc main_v12)) (W1 m ρ c (Proc.devRef .tc main_v13))
      (broadcastInDim S100000 ![] bcast_S_S100000 (W1 m ρ c (Proc.devRef .tc main_cst_2))) := by
    show StableHlo.after hostOps0_1 (W1 m ρ c) (Proc.devRef .tc main_v14) = _
    generalize W1 m ρ c = X
    after_results_simp
    rfl
  rw [h, W1_v12, W1_v13, W1_cst_2]
  rfl

theorem W2_v3 : W2 m ρ c (Proc.devRef .tc main_v3) = val_main_v3 (F := Ideal) (m ((c : Thread nD τ).loc main_arg1)) :=
  calc W2 m ρ c (Proc.devRef .tc main_v3)
    _ = W1 m ρ c (Proc.devRef .tc main_v3) := (by show StableHlo.after hostOps0_1 (W1 m ρ c) (Proc.devRef .tc main_v3) = _; generalize W1 m ρ c = X; after_results)
    _ = val_main_v3 (F := Ideal) (m ((c : Thread nD τ).loc main_arg1)) := W1_v3 m ρ c

theorem W2_v6 : W2 m ρ c (Proc.devRef .tc main_v6) = val_main_v6 (F := Ideal) (m ((c : Thread nD τ).loc main_arg1)) :=
  calc W2 m ρ c (Proc.devRef .tc main_v6)
    _ = W1 m ρ c (Proc.devRef .tc main_v6) := (by show StableHlo.after hostOps0_1 (W1 m ρ c) (Proc.devRef .tc main_v6) = _; generalize W1 m ρ c = X; after_results)
    _ = val_main_v6 (F := Ideal) (m ((c : Thread nD τ).loc main_arg1)) := W1_v6 m ρ c

/-! ## After the third host stretch: the per-edge weight, as a vector and as a column -/

theorem W3_v30 : W3 m ρ c (Proc.devRef .tc main_v30) = shapeCast S1700000x1 (val_main_v29 (F := Ideal) (m ((c : Thread nD τ).loc main_arg1))) shapeCasts_S1700000_S1700000x1 := by
  show StableHlo.after hostOps0_2 (W2 m ρ c) (Proc.devRef .tc main_v30) = _
  have e0 := W2_v3 m ρ c; have e1 := W2_v6 m ρ c; have e2 := W2_v14 m ρ c
  generalize W2 m ρ c = X at e0 e1 e2 ⊢
  after_results
  rw [e0, e1, e2]
  rfl

theorem W3_v3 : W3 m ρ c (Proc.devRef .tc main_v3) = val_main_v3 (F := Ideal) (m ((c : Thread nD τ).loc main_arg1)) :=
  calc W3 m ρ c (Proc.devRef .tc main_v3)
    _ = W2 m ρ c (Proc.devRef .tc main_v3) := (by show StableHlo.after hostOps0_2 (W2 m ρ c) (Proc.devRef .tc main_v3) = _; generalize W2 m ρ c = X; after_results)
    _ = val_main_v3 (F := Ideal) (m ((c : Thread nD τ).loc main_arg1)) := W2_v3 m ρ c

theorem W3_v6 : W3 m ρ c (Proc.devRef .tc main_v6) = val_main_v6 (F := Ideal) (m ((c : Thread nD τ).loc main_arg1)) :=
  calc W3 m ρ c (Proc.devRef .tc main_v6)
    _ = W2 m ρ c (Proc.devRef .tc main_v6) := (by show StableHlo.after hostOps0_2 (W2 m ρ c) (Proc.devRef .tc main_v6) = _; generalize W2 m ρ c = X; after_results)
    _ = val_main_v6 (F := Ideal) (m ((c : Thread nD τ).loc main_arg1)) := W2_v6 m ρ c

theorem W3_arg0 : W3 m ρ c (Proc.devRef .tc main_arg0) = m ((c : Thread nD τ).loc main_arg0) :=
  calc W3 m ρ c (Proc.devRef .tc main_arg0)
    _ = W2 m ρ c (Proc.devRef .tc main_arg0) := (by show StableHlo.after hostOps0_2 (W2 m ρ c) (Proc.devRef .tc main_arg0) = _; generalize W2 m ρ c = X; after_results)
    _ = W1 m ρ c (Proc.devRef .tc main_arg0) := (by show StableHlo.after hostOps0_1 (W1 m ρ c) (Proc.devRef .tc main_arg0) = _; generalize W1 m ρ c = X; after_results)
    _ = W0 m ρ c (Proc.devRef .tc main_arg0) := (by show StableHlo.after hostOps0 (W0 m ρ c) (Proc.devRef .tc main_arg0) = _; generalize W0 m ρ c = X; after_results)
    _ = m ((c : Thread nD τ).loc main_arg0) := rfl

theorem W3_arg3 : W3 m ρ c (Proc.devRef .tc main_arg3) = m ((c : Thread nD τ).loc main_arg3) :=
  calc W3 m ρ c (Proc.devRef .tc main_arg3)
    _ = W2 m ρ c (Proc.devRef .tc main_arg3) := (by show StableHlo.after hostOps0_2 (W2 m ρ c) (Proc.devRef .tc main_arg3) = _; generalize W2 m ρ c = X; after_results)
    _ = W1 m ρ c (Proc.devRef .tc main_arg3) := (by show StableHlo.after hostOps0_1 (W1 m ρ c) (Proc.devRef .tc main_arg3) = _; generalize W1 m ρ c = X; after_results)
    _ = W0 m ρ c (Proc.devRef .tc main_arg3) := (by show StableHlo.after hostOps0 (W0 m ρ c) (Proc.devRef .tc main_arg3) = _; generalize W0 m ρ c = X; after_results)
    _ = m ((c : Thread nD τ).loc main_arg3) := rfl

/-! ## After region 0: the first projection -/

theorem W4_v31 : W4 m ρ c (Proc.devRef .tc main_v31) = val_main_v30 (F := Ideal) (m ((c : Thread nD τ).loc main_arg0)) (m ((c : Thread nD τ).loc main_arg3)) := by
  refine (W4_arr m ρ c 2).trans ((Region0.arr (V3 m ρ) c).trans ?_)
  show Region0.prod (W3 m ρ c (Proc.devRef .tc main_arg0)) (W3 m ρ c (Proc.devRef .tc main_arg3)) = _
  rw [W3_arg0, W3_arg3]
  exact Cert.Bridge.prod_bridge _ rfl rfl rfl rfl rfl rfl _ _

theorem W4_v3 : W4 m ρ c (Proc.devRef .tc main_v3) = val_main_v3 (F := Ideal) (m ((c : Thread nD τ).loc main_arg1)) :=
  calc W4 m ρ c (Proc.devRef .tc main_v3)
    _ = W3 m ρ c (Proc.devRef .tc main_v3) := W4_of_ne m ρ c main_v3 (by decide)
    _ = val_main_v3 (F := Ideal) (m ((c : Thread nD τ).loc main_arg1)) := W3_v3 m ρ c

theorem W4_v6 : W4 m ρ c (Proc.devRef .tc main_v6) = val_main_v6 (F := Ideal) (m ((c : Thread nD τ).loc main_arg1)) :=
  calc W4 m ρ c (Proc.devRef .tc main_v6)
    _ = W3 m ρ c (Proc.devRef .tc main_v6) := W4_of_ne m ρ c main_v6 (by decide)
    _ = val_main_v6 (F := Ideal) (m ((c : Thread nD τ).loc main_arg1)) := W3_v6 m ρ c

theorem W4_v30 : W4 m ρ c (Proc.devRef .tc main_v30) = shapeCast S1700000x1 (val_main_v29 (F := Ideal) (m ((c : Thread nD τ).loc main_arg1))) shapeCasts_S1700000_S1700000x1 :=
  calc W4 m ρ c (Proc.devRef .tc main_v30)
    _ = W3 m ρ c (Proc.devRef .tc main_v30) := W4_of_ne m ρ c main_v30 (by decide)
    _ = shapeCast S1700000x1 (val_main_v29 (F := Ideal) (m ((c : Thread nD τ).loc main_arg1))) shapeCasts_S1700000_S1700000x1 := W3_v30 m ρ c

/-! ## After the fourth host stretch: the projected rows gathered along the edges -/

theorem W5_v38 : W5 m ρ c (Proc.devRef .tc main_v38) = val_main_v37 (F := Ideal) (m ((c : Thread nD τ).loc main_arg0)) (m ((c : Thread nD τ).loc main_arg1)) (m ((c : Thread nD τ).loc main_arg3)) := by
  show StableHlo.after hostOps1 (W4 m ρ c) (Proc.devRef .tc main_v38) = _
  have e0 := W4_v31 m ρ c; have e1 := W4_v3 m ρ c
  generalize W4 m ρ c = X at e0 e1 ⊢
  after_results
  rw [e0, e1]
  rfl

theorem W5_v3 : W5 m ρ c (Proc.devRef .tc main_v3) = val_main_v3 (F := Ideal) (m ((c : Thread nD τ).loc main_arg1)) :=
  calc W5 m ρ c (Proc.devRef .tc main_v3)
    _ = W4 m ρ c (Proc.devRef .tc main_v3) := (by show StableHlo.after hostOps1 (W4 m ρ c) (Proc.devRef .tc main_v3) = _; generalize W4 m ρ c = X; after_results)
    _ = val_main_v3 (F := Ideal) (m ((c : Thread nD τ).loc main_arg1)) := W4_v3 m ρ c

theorem W5_v6 : W5 m ρ c (Proc.devRef .tc main_v6) = val_main_v6 (F := Ideal) (m ((c : Thread nD τ).loc main_arg1)) :=
  calc W5 m ρ c (Proc.devRef .tc main_v6)
    _ = W4 m ρ c (Proc.devRef .tc main_v6) := (by show StableHlo.after hostOps1 (W4 m ρ c) (Proc.devRef .tc main_v6) = _; generalize W4 m ρ c = X; after_results)
    _ = val_main_v6 (F := Ideal) (m ((c : Thread nD τ).loc main_arg1)) := W4_v6 m ρ c

theorem W5_v30 : W5 m ρ c (Proc.devRef .tc main_v30) = shapeCast S1700000x1 (val_main_v29 (F := Ideal) (m ((c : Thread nD τ).loc main_arg1))) shapeCasts_S1700000_S1700000x1 :=
  calc W5 m ρ c (Proc.devRef .tc main_v30)
    _ = W4 m ρ c (Proc.devRef .tc main_v30) := (by show StableHlo.after hostOps1 (W4 m ρ c) (Proc.devRef .tc main_v30) = _; generalize W4 m ρ c = X; after_results)
    _ = shapeCast S1700000x1 (val_main_v29 (F := Ideal) (m ((c : Thread nD τ).loc main_arg1))) shapeCasts_S1700000_S1700000x1 := W4_v30 m ρ c

/-! ## After region 1: the gathered rows scaled by their edge weights -/

theorem W6_v39 : W6 m ρ c (Proc.devRef .tc main_v39) = val_main_v40 (F := Ideal) (m ((c : Thread nD τ).loc main_arg0)) (m ((c : Thread nD τ).loc main_arg1)) (m ((c : Thread nD τ).loc main_arg3)) := by
  refine (W6_arr m ρ c 2).trans ((Region1.arr (V5 m ρ) c).trans ?_)
  show Region1.scale (W5 m ρ c (Proc.devRef .tc main_v38)) (W5 m ρ c (Proc.devRef .tc main_v30)) = _
  rw [W5_v38, W5_v30]
  exact Cert.Bridge.scale_bridge (by decide) _ _ _ _ _

theorem W6_v3 : W6 m ρ c (Proc.devRef .tc main_v3) = val_main_v3 (F := Ideal) (m ((c : Thread nD τ).loc main_arg1)) :=
  calc W6 m ρ c (Proc.devRef .tc main_v3)
    _ = W5 m ρ c (Proc.devRef .tc main_v3) := W6_of_ne m ρ c main_v3 (by decide)
    _ = val_main_v3 (F := Ideal) (m ((c : Thread nD τ).loc main_arg1)) := W5_v3 m ρ c

theorem W6_v6 : W6 m ρ c (Proc.devRef .tc main_v6) = val_main_v6 (F := Ideal) (m ((c : Thread nD τ).loc main_arg1)) :=
  calc W6 m ρ c (Proc.devRef .tc main_v6)
    _ = W5 m ρ c (Proc.devRef .tc main_v6) := W6_of_ne m ρ c main_v6 (by decide)
    _ = val_main_v6 (F := Ideal) (m ((c : Thread nD τ).loc main_arg1)) := W5_v6 m ρ c

theorem W6_v30 : W6 m ρ c (Proc.devRef .tc main_v30) = shapeCast S1700000x1 (val_main_v29 (F := Ideal) (m ((c : Thread nD τ).loc main_arg1))) shapeCasts_S1700000_S1700000x1 :=
  calc W6 m ρ c (Proc.devRef .tc main_v30)
    _ = W5 m ρ c (Proc.devRef .tc main_v30) := (W6_arr m ρ c 1).trans (((dat1 (V5 m ρ) c).arrAt_in 1 rfl _).trans (A_eq1 (V5 m ρ) c 1))
    _ = shapeCast S1700000x1 (val_main_v29 (F := Ideal) (m ((c : Thread nD τ).loc main_arg1))) shapeCasts_S1700000_S1700000x1 := W5_v30 m ρ c

theorem W6_arg4 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := (by show StableHlo.after hostOps1 (W4 m ρ c) (Proc.devRef .tc main_arg4) = _; generalize W4 m ρ c = X; after_results)
    _ = W3 m ρ c (Proc.devRef .tc main_arg4) := W4_of_ne m ρ c main_arg4 (by decide)
    _ = W2 m ρ c (Proc.devRef .tc main_arg4) := (by show StableHlo.after hostOps0_2 (W2 m ρ c) (Proc.devRef .tc main_arg4) = _; generalize W2 m ρ c = X; after_results)
    _ = W1 m ρ c (Proc.devRef .tc main_arg4) := (by show StableHlo.after hostOps0_1 (W1 m ρ c) (Proc.devRef .tc main_arg4) = _; generalize W1 m ρ c = X; after_results)
    _ = W0 m ρ c (Proc.devRef .tc main_arg4) := (by show StableHlo.after hostOps0 (W0 m ρ c) (Proc.devRef .tc main_arg4) = _; generalize W0 m ρ c = X; after_results)
    _ = m ((c : Thread nD τ).loc main_arg4) := rfl

end Cert.KernelIdeal.Fold

end
-- ==== Proof.Region2.lean ====
/-
  The bias and the cut at zero after the first aggregation.  The region's grid has 20 points; point t stages rows
  5000 t … 5000 t + 4999 of the aggregated 100000 × 128 matrix and the whole 1 × 128 bias row, adds the row to every
  row of the block, takes the maximum with zero and writes the same rows of the result.  Entry (r, q) of the block
  at point t is max (aggregated (5000 t + r, q) + bias (0, q)) 0: the block of ONE whole-array function.  The 20
  blocks tile the 100000 rows, so after the region the result array is that function of the two arrays as the region
  found them.
-/
import proofs.«111700_j20091857011065_1_alg».proof.Proof.Gen.KernelIdeal.Frame
import proofs.«111700_j20091857011065_1_alg».proof.Proof.Payloads
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A 1 × 128 row added to every row of a 100000 × 128 array, then the maximum with zero, entry by entry. -/
def biasCut (a : S100000x128.Idx → EReal) (b : S1x128.Idx → EReal) : S100000x128.Idx → EReal :=
  fun i => max (a i + b (ix2 (0 : Fin 1) (⟨(i 1).val, idx2_lt1 i⟩ : Fin 128))) (Ideal.ofBits .f32 0x00000000#32)

/-- The printed index maps over the 20 points: the row block of the aggregated window and of the result window is the
    point's number, every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the biased and cut array. -/
theorem flushed_eq (c : Dev nD) (t : Fin cfg2.N) :
    (dat2 V c).flushed 2 t = ((cfg2.win 2).blk t).view.read (Elt Ideal) (biasCut (V c main_v42) (V c main_v43)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k2_pay1 (iblk2 V c 0 t) (iblk2 V c 1 t) (ix2 p q) = biasCut (V c main_v42) (V c main_v43) (((cfg2.win 2).blk t).view.emb (ix2 p q))
  rw [Payloads.pay2_at]
  unfold biasCut
  have h0 : iblk2 V c 0 t (ix2 p q) = V c main_v42 (((cfg2.win 2).blk t).view.emb (ix2 p q)) := by
    show V c main_v42 (((cfg2.win 0).blk t).view.emb (ix2 p q)) = _
    refine congrArg (V c main_v42) ?_
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * q.val = win2_2.index t (1 : Fin 2) * 128 + 1 * q.val; omega
  have h1 : iblk2 V c 1 t (ix2 (0 : Fin 1) q) = V c main_v43 (ix2 (0 : Fin 1) (⟨((((cfg2.win 2).blk t).view.emb (ix2 p q)) 1).val, idx2_lt1 _⟩ : Fin 128)) := by
    show V c main_v43 (((cfg2.win 1).blk t).view.emb (ix2 (0 : Fin 1) q)) = _
    refine congrArg (V c main_v43) ?_
    funext a; apply Fin.ext
    match a with
    | ⟨0, _⟩ => show win2_1.index t (0 : Fin 2) * 1 + 1 * 0 = 0; omega
    | ⟨1, _⟩ => show win2_1.index t (1 : Fin 2) * 128 + 1 * q.val = win2_2.index t (1 : Fin 2) * 128 + 1 * q.val; omega
  rw [h0, h1]

/-- An index of the result array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Row r lies in the block of point r / 5000: the 20 blocks cover the array. -/
theorem cover (i : S100000x128.Idx) : ∃ t : Fin cfg2.N, (cfg2.win 2).flush t = true ∧ i ∈ ((cfg2.win 2).blk t).view.set := by
  have hi0 : (i 0).val < 100000 := idx2_lt0 i
  have hi1 : (i 1).val < 128 := idx2_lt1 i
  have hN : cfg2.N = 20 := N_2
  let t : Fin cfg2.N := ⟨(i 0).val / 5000, by rw [hN]; omega⟩
  obtain ⟨e0, e1, e2, e3, e4, e5⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its result array is the biased and cut array of its two input arrays as it found them. -/
theorem arr (c : Dev nD) : (dat2 V c).arrAt 2 cfg2.N = biasCut (V c main_v42) (V c main_v43) :=
  (dat2 V c).arrAt_eq_of_cover 2 _ (fun t _ => flushed_eq V c t) cover

end Cert.KernelIdeal.Region2

end
-- ==== Proof.Region3.lean ====
/- The second projection: the hidden features after the first layer times the second 128 x 128 weight matrix.
  The grid has 20 points; point t stages rows 5000 t ... 5000 t + 4999 of the hidden matrix and the whole weight
  matrix and writes the same rows of the product, so entry (r, q) of its block is the sum over k of
  hidden (5000 t + r, k) * weight (k, q).  The 20 blocks tile the 100000 rows: after the region the result array is
  the matrix product of the two arrays as the region found them.
-/
import proofs.«111700_j20091857011065_1_alg».proof.Proof.Gen.KernelIdeal.Frame
import proofs.«111700_j20091857011065_1_alg».proof.Proof.Payloads
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The matrix product of a 100000 × 128 array with a 128 × 128 array, entry by entry. -/
def prod (x : S100000x128.Idx → EReal) (w : S128x128.Idx → EReal) : S100000x128.Idx → EReal :=
  fun i => ∑ k : Fin 128, x (ix2 (⟨(i 0).val, idx2_lt0 i⟩ : Fin 100000) k) * w (ix2 k (⟨(i 1).val, idx2_lt1 i⟩ : Fin 128))

/-- The printed index maps over the 20 points: the row block of the feature window and of the result window is the
    point's number, every other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the matrix product of the two arrays as the region finds them. -/
theorem flushed_eq (c : Dev nD) (t : Fin cfg3.N) :
    (dat3 V c).flushed 2 t = ((cfg3.win 2).blk t).view.read (Elt Ideal) (prod (V c main_v44) (V c main_arg5)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q) = prod (V c main_v44) (V c main_arg5) (((cfg3.win 2).blk t).view.emb (ix2 p q))
  rw [Payloads.pay3_at]
  unfold prod
  refine Finset.sum_congr rfl fun k _ => ?_
  have h0 : iblk3 V c 0 t (ix2 p k) = V c main_v44 (ix2 (⟨((((cfg3.win 2).blk t).view.emb (ix2 p q)) 0).val, idx2_lt0 _⟩ : Fin 100000) k) := by
    show V c main_v44 (((cfg3.win 0).blk t).view.emb (ix2 p k)) = _
    refine congrArg (V c main_v44) ?_
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * k.val = k.val; omega
  have h1 : iblk3 V c 1 t (ix2 k q) = V c main_arg5 (ix2 k (⟨((((cfg3.win 2).blk t).view.emb (ix2 p q)) 1).val, idx2_lt1 _⟩ : Fin 128)) := by
    show V c main_arg5 (((cfg3.win 1).blk t).view.emb (ix2 k q)) = _
    refine congrArg (V c main_arg5) ?_
    funext a; apply Fin.ext
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega
  rw [h0, h1]

/-- An index of the result array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v45).slice (win3_2.rect t)).set ↔ _
  rw [View.set_slice_whole, Rect.mem_set_unit]
  exact Iff.rfl

/-- Row r lies in the block of point r / 5000: the 20 blocks cover the array. -/
theorem cover (i : S100000x128.Idx) : ∃ t : Fin cfg3.N, (cfg3.win 2).flush t = true ∧ i ∈ ((cfg3.win 2).blk t).view.set := by
  have hi0 : (i 0).val < 100000 := idx2_lt0 i
  have hi1 : (i 1).val < 128 := idx2_lt1 i
  have hN : cfg3.N = 20 := N_3
  let t : Fin cfg3.N := ⟨(i 0).val / 5000, by rw [hN]; omega⟩
  obtain ⟨e0, e1, e2, e3, e4, e5⟩ := idx_facts t
  have e4' : win3_2.index t (0 : Fin 2) = (i 0).val / 5000 := e4
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its result array is the matrix product of its two input arrays as it found them. -/
theorem arr (c : Dev nD) : (dat3 V c).arrAt 2 cfg3.N = prod (V c main_v44) (V c main_arg5) :=
  (dat3 V c).arrAt_eq_of_cover 2 _ (fun t _ => flushed_eq V c t) cover

end Cert.KernelIdeal.Region3

end
-- ==== Proof.Region4.lean ====
/- The per-edge scaling of the second layer's gathered rows, by the same 1700000 x 1 column of edge weights.
  The grid has 170 points; point t stages rows 10000 t ... 10000 t + 9999 of the gathered matrix and of the column
  and writes the same rows of the result, entry (r, q) of its block being gathered (10000 t + r, q) *
  weight (10000 t + r, 0).  The 170 blocks tile the 1700000 rows.
-/
import proofs.«111700_j20091857011065_1_alg».proof.Proof.Gen.KernelIdeal.Frame
import proofs.«111700_j20091857011065_1_alg».proof.Proof.Payloads
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every row of a 1700000 × 128 array multiplied by its entry of a 1700000 × 1 column. -/
def scale (g : S1700000x128.Idx → EReal) (n : S1700000x1.Idx → EReal) : S1700000x128.Idx → EReal :=
  fun i => g i * n (ix2 (⟨(i 0).val, idx2_lt0 i⟩ : Fin 1700000) (0 : Fin 1))

/-- The printed index maps over the 170 points: every window's row block is the point's number, its column block zero. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the scaled array. -/
theorem flushed_eq (c : Dev nD) (t : Fin cfg4.N) :
    (dat4 V c).flushed 2 t = ((cfg4.win 2).blk t).view.read (Elt Ideal) (scale (V c main_v52) (V c main_v30)) := by
  show (cfg4.win 2).cut (grid4.coords t) ((dat4 V c).after 2 t) = _
  rw [after4_2]
  unfold out4_2
  rw [View.canon_unit_zero hz]
  simp only [View.ld_unit_zero (S := S10000x128) hz, View.ld_unit_zero (S := S10000x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k4_pay1 (iblk4 V c 0 t) (iblk4 V c 1 t) (ix2 p q) = scale (V c main_v52) (V c main_v30) (((cfg4.win 2).blk t).view.emb (ix2 p q))
  rw [Payloads.pay4_at]
  unfold scale
  have h0 : iblk4 V c 0 t (ix2 p q) = V c main_v52 (((cfg4.win 2).blk t).view.emb (ix2 p q)) := by
    show V c main_v52 (((cfg4.win 0).blk t).view.emb (ix2 p q)) = _
    refine congrArg (V c main_v52) ?_
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * q.val = win4_2.index t (1 : Fin 2) * 128 + 1 * q.val; omega
  have h1 : iblk4 V c 1 t (ix2 p (0 : Fin 1)) = V c main_v30 (ix2 (⟨((((cfg4.win 2).blk t).view.emb (ix2 p q)) 0).val, idx2_lt0 _⟩ : Fin 1700000) (0 : Fin 1)) := by
    show V c main_v30 (((cfg4.win 1).blk t).view.emb (ix2 p (0 : Fin 1))) = _
    refine congrArg (V c main_v30) ?_
    funext a; apply Fin.ext
    match a with
    | ⟨0, _⟩ => show win4_1.index t (0 : Fin 2) * 10000 + 1 * p.val = win4_2.index t (0 : Fin 2) * 10000 + 1 * p.val; omega
    | ⟨1, _⟩ => show win4_1.index t (1 : Fin 2) * 1 + 1 * 0 = 0; omega
  rw [h0, h1]

/-- An index of the result array is in point t's block iff each coordinate is in the block's range on its axis. -/
theorem mem_blk (t : Fin cfg4.N) (i : S1700000x128.Idx) :
    i ∈ ((cfg4.win 2).blk t).view.set ↔ ∀ a : Fin 2, win4_2.index t a * S10000x128.size a ≤ (i a).val ∧ (i a).val < win4_2.index t a * S10000x128.size a + S10000x128.size a := by
  show i ∈ ((View.whole main_v53).slice (win4_2.rect t)).set ↔ _
  rw [View.set_slice_whole, Rect.mem_set_unit]
  exact Iff.rfl

/-- Row r lies in the block of point r / 10000: the 170 blocks cover the array. -/
theorem cover (i : S1700000x128.Idx) : ∃ t : Fin cfg4.N, (cfg4.win 2).flush t = true ∧ i ∈ ((cfg4.win 2).blk t).view.set := by
  have hi0 : (i 0).val < 1700000 := idx2_lt0 i
  have hi1 : (i 1).val < 128 := idx2_lt1 i
  have hN : cfg4.N = 170 := N_4
  let t : Fin cfg4.N := ⟨(i 0).val / 10000, by rw [hN]; omega⟩
  obtain ⟨e0, e1, e2, e3, e4, e5⟩ := idx_facts t
  have e4' : win4_2.index t (0 : Fin 2) = (i 0).val / 10000 := e4
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 128 ≤ (i 1).val ∧ (i 1).val < win4_2.index t (1 : Fin 2) * 128 + 128; omega

/-- After the region its result array is the scaled array of its two input arrays as it found them. -/
theorem arr (c : Dev nD) : (dat4 V c).arrAt 2 cfg4.N = scale (V c main_v52) (V c main_v30) :=
  (dat4 V c).arrAt_eq_of_cover 2 _ (fun t _ => flushed_eq V c t) cover

end Cert.KernelIdeal.Region4

end
-- ==== Proof.FoldB.lean ====
import proofs.«111700_j20091857011065_1_alg».proof.Proof.Gen.KernelIdeal.Frame
import proofs.«111700_j20091857011065_1_alg».proof.Proof.RefRead
import proofs.«111700_j20091857011065_1_alg».proof.Proof.FoldA
import proofs.«111700_j20091857011065_1_alg».proof.Proof.Region2
import proofs.«111700_j20091857011065_1_alg».proof.Proof.Region3
import proofs.«111700_j20091857011065_1_alg».proof.Proof.Region4
import proofs.«111700_j20091857011065_1_alg».proof.Proof.Bridge
import Idealize.ShloMosaic.Lib.StableHlo.Run

set_option maxRecDepth 16384
-- a buffer read back through several host stretches of about twenty operations each is one declaration
set_option maxHeartbeats 4000000

noncomputable section

/-!
  The kernel program's buffers at its segment boundaries, second part: the first layer's aggregation, bias and cut at
  zero, the second projection, its gather along the edges and the per-edge scaling.
-/

namespace Cert.KernelIdeal.Fold

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-! ## After the fifth host stretch: the first aggregation, and the first bias as a row -/

theorem W7_v42 : W7 m ρ c (Proc.devRef .tc main_v42) = val_main_v43 (F := Ideal) (m ((c : Thread nD τ).loc main_arg0)) (m ((c : Thread nD τ).loc main_arg1)) (m ((c : Thread nD τ).loc main_arg3)) := by
  show StableHlo.after hostOps2 (W6 m ρ c) (Proc.devRef .tc main_v42) = _
  have e0 := W6_v6 m ρ c; have e1 := W6_v39 m ρ c
  generalize W6 m ρ c = X at e0 e1 ⊢
  after_results
  rw [e0, e1]
  rfl

theorem W7_v43 : W7 m ρ c (Proc.devRef .tc main_v43) = shapeCast S1x128 (m ((c : Thread nD τ).loc main_arg4)) shapeCasts_S128_S1x128 := by
  show StableHlo.after hostOps2 (W6 m ρ c) (Proc.devRef .tc main_v43) = _
  have e0 := W6_arg4 m ρ c
  generalize W6 m ρ c = X at e0 ⊢
  after_results
  rw [e0]
  rfl

theorem W7_v3 : W7 m ρ c (Proc.devRef .tc main_v3) = val_main_v3 (F := Ideal) (m ((c : Thread nD τ).loc main_arg1)) :=
  calc W7 m ρ c (Proc.devRef .tc main_v3)
    _ = W6 m ρ c (Proc.devRef .tc main_v3) := (by show StableHlo.after hostOps2 (W6 m ρ c) (Proc.devRef .tc main_v3) = _; generalize W6 m ρ c = X; after_results)
    _ = val_main_v3 (F := Ideal) (m ((c : Thread nD τ).loc main_arg1)) := W6_v3 m ρ c

theorem W7_v6 : W7 m ρ c (Proc.devRef .tc main_v6) = val_main_v6 (F := Ideal) (m ((c : Thread nD τ).loc main_arg1)) :=
  calc W7 m ρ c (Proc.devRef .tc main_v6)
    _ = W6 m ρ c (Proc.devRef .tc main_v6) := (by show StableHlo.after hostOps2 (W6 m ρ c) (Proc.devRef .tc main_v6) = _; generalize W6 m ρ c = X; after_results)
    _ = val_main_v6 (F := Ideal) (m ((c : Thread nD τ).loc main_arg1)) := W6_v6 m ρ c

theorem W7_v30 : W7 m ρ c (Proc.devRef .tc main_v30) = shapeCast S1700000x1 (val_main_v29 (F := Ideal) (m ((c : Thread nD τ).loc main_arg1))) shapeCasts_S1700000_S1700000x1 :=
  calc W7 m ρ c (Proc.devRef .tc main_v30)
    _ = W6 m ρ c (Proc.devRef .tc main_v30) := (by show StableHlo.after hostOps2 (W6 m ρ c) (Proc.devRef .tc main_v30) = _; generalize W6 m ρ c = X; after_results)
    _ = shapeCast S1700000x1 (val_main_v29 (F := Ideal) (m ((c : Thread nD τ).loc main_arg1))) shapeCasts_S1700000_S1700000x1 := W6_v30 m ρ c

/-! ## After region 2: the first layer's output -/

theorem W8_v44 : W8 m ρ c (Proc.devRef .tc main_v44) = val_main_v47 (F := Ideal) (m ((c : Thread nD τ).loc main_arg0)) (m ((c : Thread nD τ).loc main_arg1)) (m ((c : Thread nD τ).loc main_arg3)) (m ((c : Thread nD τ).loc main_arg4)) := by
  refine (W8_arr m ρ c 2).trans ((Region2.arr (V7 m ρ) c).trans ?_)
  show Region2.biasCut (W7 m ρ c (Proc.devRef .tc main_v42)) (W7 m ρ c (Proc.devRef .tc main_v43)) = _
  rw [W7_v42, W7_v43]
  exact Cert.Bridge.biasCut_bridge (by decide) _ _ _ _ _ _

theorem W8_v3 : W8 m ρ c (Proc.devRef .tc main_v3) = val_main_v3 (F := Ideal) (m ((c : Thread nD τ).loc main_arg1)) :=
  calc W8 m ρ c (Proc.devRef .tc main_v3)
    _ = W7 m ρ c (Proc.devRef .tc main_v3) := W8_of_ne m ρ c main_v3 (by decide)
    _ = val_main_v3 (F := Ideal) (m ((c : Thread nD τ).loc main_arg1)) := W7_v3 m ρ c

theorem W8_v6 : W8 m ρ c (Proc.devRef .tc main_v6) = val_main_v6 (F := Ideal) (m ((c : Thread nD τ).loc main_arg1)) :=
  calc W8 m ρ c (Proc.devRef .tc main_v6)
    _ = W7 m ρ c (Proc.devRef .tc main_v6) := W8_of_ne m ρ c main_v6 (by decide)
    _ = val_main_v6 (F := Ideal) (m ((c : Thread nD τ).loc main_arg1)) := W7_v6 m ρ c

theorem W8_v30 : W8 m ρ c (Proc.devRef .tc main_v30) = shapeCast S1700000x1 (val_main_v29 (F := Ideal) (m ((c : Thread nD τ).loc main_arg1))) shapeCasts_S1700000_S1700000x1 :=
  calc W8 m ρ c (Proc.devRef .tc main_v30)
    _ = W7 m ρ c (Proc.devRef .tc main_v30) := W8_of_ne m ρ c main_v30 (by decide)
    _ = shapeCast S1700000x1 (val_main_v29 (F := Ideal) (m ((c : Thread nD τ).loc main_arg1))) shapeCasts_S1700000_S1700000x1 := W7_v30 m ρ c

theorem W8_arg5 : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := (by show StableHlo.after hostOps2 (W6 m ρ c) (Proc.devRef .tc main_arg5) = _; generalize W6 m ρ c = X; after_results)
    _ = W5 m ρ c (Proc.devRef .tc main_arg5) := W6_of_ne m ρ c main_arg5 (by decide)
    _ = W4 m ρ c (Proc.devRef .tc main_arg5) := (by show StableHlo.after hostOps1 (W4 m ρ c) (Proc.devRef .tc main_arg5) = _; generalize W4 m ρ c = X; after_results)
    _ = W3 m ρ c (Proc.devRef .tc main_arg5) := W4_of_ne m ρ c main_arg5 (by decide)
    _ = W2 m ρ c (Proc.devRef .tc main_arg5) := (by show StableHlo.after hostOps0_2 (W2 m ρ c) (Proc.devRef .tc main_arg5) = _; generalize W2 m ρ c = X; after_results)
    _ = W1 m ρ c (Proc.devRef .tc main_arg5) := (by show StableHlo.after hostOps0_1 (W1 m ρ c) (Proc.devRef .tc main_arg5) = _; generalize W1 m ρ c = X; after_results)
    _ = W0 m ρ c (Proc.devRef .tc main_arg5) := (by show StableHlo.after hostOps0 (W0 m ρ c) (Proc.devRef .tc main_arg5) = _; generalize W0 m ρ c = X; after_results)
    _ = m ((c : Thread nD τ).loc main_arg5) := rfl

/-! ## After region 3: the second projection -/

theorem W9_v45 : W9 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W9_arr m ρ c 2).trans ((Region3.arr (V8 m ρ) c).trans ?_)
  show Region3.prod (W8 m ρ c (Proc.devRef .tc main_v44)) (W8 m ρ c (Proc.devRef .tc main_arg5)) = _
  rw [W8_v44, W8_arg5]
  exact Cert.Bridge.prod_bridge _ rfl rfl rfl rfl rfl rfl _ _

theorem W9_v3 : W9 m ρ c (Proc.devRef .tc main_v3) = val_main_v3 (F := Ideal) (m ((c : Thread nD τ).loc main_arg1)) :=
  calc W9 m ρ c (Proc.devRef .tc main_v3)
    _ = W8 m ρ c (Proc.devRef .tc main_v3) := W9_of_ne m ρ c main_v3 (by decide)
    _ = val_main_v3 (F := Ideal) (m ((c : Thread nD τ).loc main_arg1)) := W8_v3 m ρ c

theorem W9_v6 : W9 m ρ c (Proc.devRef .tc main_v6) = val_main_v6 (F := Ideal) (m ((c : Thread nD τ).loc main_arg1)) :=
  calc W9 m ρ c (Proc.devRef .tc main_v6)
    _ = W8 m ρ c (Proc.devRef .tc main_v6) := W9_of_ne m ρ c main_v6 (by decide)
    _ = val_main_v6 (F := Ideal) (m ((c : Thread nD τ).loc main_arg1)) := W8_v6 m ρ c

theorem W9_v30 : W9 m ρ c (Proc.devRef .tc main_v30) = shapeCast S1700000x1 (val_main_v29 (F := Ideal) (m ((c : Thread nD τ).loc main_arg1))) shapeCasts_S1700000_S1700000x1 :=
  calc W9 m ρ c (Proc.devRef .tc main_v30)
    _ = W8 m ρ c (Proc.devRef .tc main_v30) := W9_of_ne m ρ c main_v30 (by decide)
    _ = shapeCast S1700000x1 (val_main_v29 (F := Ideal) (m ((c : Thread nD τ).loc main_arg1))) shapeCasts_S1700000_S1700000x1 := W8_v30 m ρ c

/-! ## After the sixth host stretch: the second projection's rows gathered along the edges -/

theorem W10_v52 : W10 m ρ c (Proc.devRef .tc main_v52) = val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps4 (W9 m ρ c) (Proc.devRef .tc main_v52) = _
  have e0 := W9_v45 m ρ c; have e1 := W9_v3 m ρ c
  generalize W9 m ρ c = X at e0 e1 ⊢
  after_results
  rw [e0, e1]
  rfl

theorem W10_v6 : W10 m ρ c (Proc.devRef .tc main_v6) = val_main_v6 (F := Ideal) (m ((c : Thread nD τ).loc main_arg1)) :=
  calc W10 m ρ c (Proc.devRef .tc main_v6)
    _ = W9 m ρ c (Proc.devRef .tc main_v6) := (by show StableHlo.after hostOps4 (W9 m ρ c) (Proc.devRef .tc main_v6) = _; generalize W9 m ρ c = X; after_results)
    _ = val_main_v6 (F := Ideal) (m ((c : Thread nD τ).loc main_arg1)) := W9_v6 m ρ c

theorem W10_v30 : W10 m ρ c (Proc.devRef .tc main_v30) = shapeCast S1700000x1 (val_main_v29 (F := Ideal) (m ((c : Thread nD τ).loc main_arg1))) shapeCasts_S1700000_S1700000x1 :=
  calc W10 m ρ c (Proc.devRef .tc main_v30)
    _ = W9 m ρ c (Proc.devRef .tc main_v30) := (by show StableHlo.after hostOps4 (W9 m ρ c) (Proc.devRef .tc main_v30) = _; generalize W9 m ρ c = X; after_results)
    _ = shapeCast S1700000x1 (val_main_v29 (F := Ideal) (m ((c : Thread nD τ).loc main_arg1))) shapeCasts_S1700000_S1700000x1 := W9_v30 m ρ c

/-! ## After region 4: those rows scaled by their edge weights -/

theorem W11_v53 : W11 m ρ c (Proc.devRef .tc main_v53) = val_main_v58 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W11_arr m ρ c 2).trans ((Region4.arr (V10 m ρ) c).trans ?_)
  show Region4.scale (W10 m ρ c (Proc.devRef .tc main_v52)) (W10 m ρ c (Proc.devRef .tc main_v30)) = _
  rw [W10_v52, W10_v30]
  exact Cert.Bridge.scale_bridge (by decide) _ _ _ _ _

theorem W11_v6 : W11 m ρ c (Proc.devRef .tc main_v6) = val_main_v6 (F := Ideal) (m ((c : Thread nD τ).loc main_arg1)) :=
  calc W11 m ρ c (Proc.devRef .tc main_v6)
    _ = W10 m ρ c (Proc.devRef .tc main_v6) := W11_of_ne m ρ c main_v6 (by decide)
    _ = val_main_v6 (F := Ideal) (m ((c : Thread nD τ).loc main_arg1)) := W10_v6 m ρ c

theorem W11_arg6 : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := (by show StableHlo.after hostOps4 (W9 m ρ c) (Proc.devRef .tc main_arg6) = _; generalize W9 m ρ c = X; after_results)
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := (by show StableHlo.after hostOps2 (W6 m ρ c) (Proc.devRef .tc main_arg6) = _; generalize W6 m ρ c = X; after_results)
    _ = W5 m ρ c (Proc.devRef .tc main_arg6) := W6_of_ne m ρ c main_arg6 (by decide)
    _ = W4 m ρ c (Proc.devRef .tc main_arg6) := (by show StableHlo.after hostOps1 (W4 m ρ c) (Proc.devRef .tc main_arg6) = _; generalize W4 m ρ c = X; after_results)
    _ = W3 m ρ c (Proc.devRef .tc main_arg6) := W4_of_ne m ρ c main_arg6 (by decide)
    _ = W2 m ρ c (Proc.devRef .tc main_arg6) := (by show StableHlo.after hostOps0_2 (W2 m ρ c) (Proc.devRef .tc main_arg6) = _; generalize W2 m ρ c = X; after_results)
    _ = W1 m ρ c (Proc.devRef .tc main_arg6) := (by show StableHlo.after hostOps0_1 (W1 m ρ c) (Proc.devRef .tc main_arg6) = _; generalize W1 m ρ c = X; after_results)
    _ = W0 m ρ c (Proc.devRef .tc main_arg6) := (by show StableHlo.after hostOps0 (W0 m ρ c) (Proc.devRef .tc main_arg6) = _; generalize W0 m ρ c = X; after_results)
    _ = m ((c : Thread nD τ).loc main_arg6) := rfl

end Cert.KernelIdeal.Fold

end
-- ==== Proof.Region5.lean ====
/- The bias and the cut at zero after the second aggregation.  The grid has 20 points; point t stages rows
  5000 t ... 5000 t + 4999 of the aggregated matrix and the whole 1 x 128 bias row and writes the same rows of the
  result, entry (r, q) of its block being max (aggregated (5000 t + r, q) + bias (0, q)) 0.  The 20 blocks tile
  the 100000 rows.
-/
import proofs.«111700_j20091857011065_1_alg».proof.Proof.Gen.KernelIdeal.Frame
import proofs.«111700_j20091857011065_1_alg».proof.Proof.Payloads
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A 1 × 128 row added to every row of a 100000 × 128 array, then the maximum with zero, entry by entry. -/
def biasCut (a : S100000x128.Idx → EReal) (b : S1x128.Idx → EReal) : S100000x128.Idx → EReal :=
  fun i => max (a i + b (ix2 (0 : Fin 1) (⟨(i 1).val, idx2_lt1 i⟩ : Fin 128))) (Ideal.ofBits .f32 0x00000000#32)

/-- The printed index maps over the 20 points: the row block of the aggregated window and of the result window is the
    point's number, every other block index is zero. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of the biased and cut array. -/
theorem flushed_eq (c : Dev nD) (t : Fin cfg5.N) :
    (dat5 V c).flushed 2 t = ((cfg5.win 2).blk t).view.read (Elt Ideal) (biasCut (V c main_v56) (V c main_v57)) := by
  show (cfg5.win 2).cut (grid5.coords t) ((dat5 V c).after 2 t) = _
  rw [after5_2]
  unfold out5_2
  rw [View.canon_unit_zero hz]
  simp only [View.ld_unit_zero (S := S5000x128) hz, View.ld_unit_zero (S := S1x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k5_pay1 (iblk5 V c 0 t) (iblk5 V c 1 t) (ix2 p q) = biasCut (V c main_v56) (V c main_v57) (((cfg5.win 2).blk t).view.emb (ix2 p q))
  rw [Payloads.pay5_at]
  unfold biasCut
  have h0 : iblk5 V c 0 t (ix2 p q) = V c main_v56 (((cfg5.win 2).blk t).view.emb (ix2 p q)) := by
    show V c main_v56 (((cfg5.win 0).blk t).view.emb (ix2 p q)) = _
    refine congrArg (V c main_v56) ?_
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * q.val = win5_2.index t (1 : Fin 2) * 128 + 1 * q.val; omega
  have h1 : iblk5 V c 1 t (ix2 (0 : Fin 1) q) = V c main_v57 (ix2 (0 : Fin 1) (⟨((((cfg5.win 2).blk t).view.emb (ix2 p q)) 1).val, idx2_lt1 _⟩ : Fin 128)) := by
    show V c main_v57 (((cfg5.win 1).blk t).view.emb (ix2 (0 : Fin 1) q)) = _
    refine congrArg (V c main_v57) ?_
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  rw [h0, h1]

/-- An index of the result array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v58).slice (win5_2.rect t)).set ↔ _
  rw [View.set_slice_whole, Rect.mem_set_unit]
  exact Iff.rfl

/-- Row r lies in the block of point r / 5000: the 20 blocks cover the array. -/
theorem cover (i : S100000x128.Idx) : ∃ t : Fin cfg5.N, (cfg5.win 2).flush t = true ∧ i ∈ ((cfg5.win 2).blk t).view.set := by
  have hi0 : (i 0).val < 100000 := idx2_lt0 i
  have hi1 : (i 1).val < 128 := idx2_lt1 i
  have hN : cfg5.N = 20 := N_5
  let t : Fin cfg5.N := ⟨(i 0).val / 5000, by rw [hN]; omega⟩
  obtain ⟨e0, e1, e2, e3, e4, e5⟩ := idx_facts t
  have e4' : win5_2.index t (0 : Fin 2) = (i 0).val / 5000 := e4
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the region its result array is the biased and cut array of its two input arrays as it found them. -/
theorem arr (c : Dev nD) : (dat5 V c).arrAt 2 cfg5.N = biasCut (V c main_v56) (V c main_v57) :=
  (dat5 V c).arrAt_eq_of_cover 2 _ (fun t _ => flushed_eq V c t) cover

end Cert.KernelIdeal.Region5

end
-- ==== Proof.Region6.lean ====
/-
  The linear head.  The region's grid has ONE point, which stages the whole 1024 × 128 pooled matrix, the whole
  128 × 2 weight matrix and the whole 1 × 2 bias row, multiplies the first two, adds the row to every row of the
  product and writes the whole 1024 × 2 result.  Entry (r, q) is the sum over k of pooled (r, k) · weight (k, q),
  plus bias (0, q).  The one block is the whole array, so after the region the result array is that function of
  the three arrays as the region found them.
-/
import proofs.«111700_j20091857011065_1_alg».proof.Proof.Gen.KernelIdeal.Frame
import proofs.«111700_j20091857011065_1_alg».proof.Proof.Payloads
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product of a 1024 × 128 array with a 128 × 2 array plus a 1 × 2 row added to every row, entry by entry. -/
def head (x : S1024x128.Idx → EReal) (w : S128x2.Idx → EReal) (b : S1x2.Idx → EReal) : S1024x2.Idx → EReal :=
  fun i => (∑ k : Fin 128, x (ix2 (⟨(i 0).val, idx2_lt0 i⟩ : Fin 1024) k) * w (ix2 k (⟨(i 1).val, idx2_lt1 i⟩ : Fin 2)))
    + b (ix2 (0 : Fin 1) (⟨(i 1).val, idx2_lt1 i⟩ : Fin 2))

/-- The printed index maps at the one point: every block index is zero. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- What the one point writes back is the whole head array. -/
theorem flushed_eq (c : Dev nD) (t : Fin cfg6.N) :
    (dat6 V c).flushed 3 t = ((cfg6.win 3).blk t).view.read (Elt Ideal) (head (V c main_v70) (V c main_arg7) (V c main_v71)) := by
  show (cfg6.win 3).cut (grid6.coords t) ((dat6 V c).after 3 t) = _
  rw [after6_3]
  unfold out6_3
  rw [View.canon_unit_zero hz]
  simp only [View.ld_unit_zero (S := S1024x128) hz, View.ld_unit_zero (S := S128x2) hz, View.ld_unit_zero (S := S1x2) hz]
  obtain ⟨e0, e1, e2, e3, e4, e5, e6, e7⟩ := idx_facts t
  funext j
  obtain ⟨p, q, rfl⟩ : ∃ (p : Fin 1024) (q : Fin 2), j = ix2 p q := ⟨j 0, j 1, eq_ix2 j⟩
  show k6_pay1 (iblk6 V c 0 t) (iblk6 V c 1 t) (iblk6 V c 2 t) (ix2 p q) = head (V c main_v70) (V c main_arg7) (V c main_v71) (((cfg6.win 3).blk t).view.emb (ix2 p q))
  rw [Payloads.pay6_at]
  unfold head
  have h2 : iblk6 V c 2 t (ix2 (0 : Fin 1) q) = V c main_v71 (ix2 (0 : Fin 1) (⟨((((cfg6.win 3).blk t).view.emb (ix2 p q)) 1).val, idx2_lt1 _⟩ : Fin 2)) := by
    show V c main_v71 (((cfg6.win 2).blk t).view.emb (ix2 (0 : Fin 1) q)) = _
    refine congrArg (V c main_v71) ?_
    funext a; apply Fin.ext
    match a with
    | ⟨0, _⟩ => show win6_2.index t (0 : Fin 2) * 1 + 1 * 0 = 0; omega
    | ⟨1, _⟩ => show win6_2.index t (1 : Fin 2) * 2 + 1 * q.val = win6_3.index t (1 : Fin 2) * 2 + 1 * q.val; omega
  rw [h2]
  refine congrArg (· + _) (Finset.sum_congr rfl fun k _ => ?_)
  have h0 : iblk6 V c 0 t (ix2 p k) = V c main_v70 (ix2 (⟨((((cfg6.win 3).blk t).view.emb (ix2 p q)) 0).val, idx2_lt0 _⟩ : Fin 1024) k) := by
    show V c main_v70 (((cfg6.win 0).blk t).view.emb (ix2 p k)) = _
    refine congrArg (V c main_v70) ?_
    funext a; apply Fin.ext
    match a with
    | ⟨0, _⟩ => show win6_0.index t (0 : Fin 2) * 1024 + 1 * p.val = win6_3.index t (0 : Fin 2) * 1024 + 1 * p.val; omega
    | ⟨1, _⟩ => show win6_0.index t (1 : Fin 2) * 128 + 1 * k.val = k.val; omega
  have h1 : iblk6 V c 1 t (ix2 k q) = V c main_arg7 (ix2 k (⟨((((cfg6.win 3).blk t).view.emb (ix2 p q)) 1).val, idx2_lt1 _⟩ : Fin 2)) := by
    show V c main_arg7 (((cfg6.win 1).blk t).view.emb (ix2 k q)) = _
    refine congrArg (V c main_arg7) ?_
    funext a; apply Fin.ext
    match a with
    | ⟨0, _⟩ => show win6_1.index t (0 : Fin 2) * 128 + 1 * k.val = k.val; omega
    | ⟨1, _⟩ => show win6_1.index t (1 : Fin 2) * 2 + 1 * q.val = win6_3.index t (1 : Fin 2) * 2 + 1 * q.val; omega
  rw [h0, h1]

/-- An index of the result array is in the point's block iff each coordinate is in the block's range on its axis. -/
theorem mem_blk (t : Fin cfg6.N) (i : S1024x2.Idx) :
    i ∈ ((cfg6.win 3).blk t).view.set ↔ ∀ a : Fin 2, win6_3.index t a * S1024x2.size a ≤ (i a).val ∧ (i a).val < win6_3.index t a * S1024x2.size a + S1024x2.size a := by
  show i ∈ ((View.whole main_v72).slice (win6_3.rect t)).set ↔ _
  rw [View.set_slice_whole, Rect.mem_set_unit]
  exact Iff.rfl

/-- The one block is the whole array. -/
theorem cover (i : S1024x2.Idx) : ∃ t : Fin cfg6.N, (cfg6.win 3).flush t = true ∧ i ∈ ((cfg6.win 3).blk t).view.set := by
  have hi0 : (i 0).val < 1024 := idx2_lt0 i
  have hi1 : (i 1).val < 2 := idx2_lt1 i
  obtain ⟨e0, e1, e2, e3, e4, e5, e6, e7⟩ := idx_facts t6_0
  refine ⟨t6_0, flush6_3 t6_0, ?_⟩
  rw [mem_blk]
  intro a
  match a with
  | ⟨0, _⟩ => show win6_3.index t6_0 (0 : Fin 2) * 1024 ≤ (i 0).val ∧ (i 0).val < win6_3.index t6_0 (0 : Fin 2) * 1024 + 1024; omega
  | ⟨1, _⟩ => show win6_3.index t6_0 (1 : Fin 2) * 2 ≤ (i 1).val ∧ (i 1).val < win6_3.index t6_0 (1 : Fin 2) * 2 + 2; omega

/-- After the region its result array is the head array of its three input arrays as it found them. -/
theorem arr (c : Dev nD) : (dat6 V c).arrAt 3 cfg6.N = head (V c main_v70) (V c main_arg7) (V c main_v71) :=
  (dat6 V c).arrAt_eq_of_cover 3 _ (fun t _ => flushed_eq V c t) cover

end Cert.KernelIdeal.Region6

end
-- ==== Proof.FoldC.lean ====
import proofs.«111700_j20091857011065_1_alg».proof.Proof.Gen.KernelIdeal.Frame
import proofs.«111700_j20091857011065_1_alg».proof.Proof.RefRead
import proofs.«111700_j20091857011065_1_alg».proof.Proof.FoldB
import proofs.«111700_j20091857011065_1_alg».proof.Proof.Region5
import proofs.«111700_j20091857011065_1_alg».proof.Proof.Region6
import proofs.«111700_j20091857011065_1_alg».proof.Proof.Bridge
import Idealize.ShloMosaic.Lib.StableHlo.Run

set_option maxRecDepth 16384
-- a buffer read back through several host stretches of about twenty operations each is one declaration
set_option maxHeartbeats 4000000

noncomputable section

/-!
  The kernel program's buffers at its segment boundaries, last part: the second layer's aggregation, bias and cut at
  zero, the mean over each graph's nodes, and the linear head.  The result buffer at the last boundary is the
  reference's last stage of the same nine argument arrays.
-/

namespace Cert.KernelIdeal.Fold

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-! ## After the seventh host stretch: the second aggregation, and the second bias as a row -/

theorem W12_v56 : W12 m ρ c (Proc.devRef .tc main_v56) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps5 (W11 m ρ c) (Proc.devRef .tc main_v56) = _
  have e0 := W11_v6 m ρ c; have e1 := W11_v53 m ρ c
  generalize W11 m ρ c = X at e0 e1 ⊢
  after_results
  rw [e0, e1]
  rfl

theorem W12_v57 : W12 m ρ c (Proc.devRef .tc main_v57) = shapeCast S1x128 (m ((c : Thread nD τ).loc main_arg6)) shapeCasts_S128_S1x128 := by
  show StableHlo.after hostOps5 (W11 m ρ c) (Proc.devRef .tc main_v57) = _
  have e0 := W11_arg6 m ρ c
  generalize W11 m ρ c = X at e0 ⊢
  after_results
  rw [e0]
  rfl

/-! ## After region 5: the second layer's output -/

theorem W13_v58 : W13 m ρ c (Proc.devRef .tc main_v58) = val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W13_arr m ρ c 2).trans ((Region5.arr (V12 m ρ) c).trans ?_)
  show Region5.biasCut (W12 m ρ c (Proc.devRef .tc main_v56)) (W12 m ρ c (Proc.devRef .tc main_v57)) = _
  rw [W12_v56, W12_v57]
  exact Cert.Bridge.biasCut_bridge (by decide) _ _ _ _ _ _

theorem W13_arg2 : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := (by show StableHlo.after hostOps5 (W11 m ρ c) (Proc.devRef .tc main_arg2) = _; generalize W11 m ρ c = X; after_results)
    _ = W10 m ρ c (Proc.devRef .tc main_arg2) := W11_of_ne m ρ c main_arg2 (by decide)
    _ = W9 m ρ c (Proc.devRef .tc main_arg2) := (by show StableHlo.after hostOps4 (W9 m ρ c) (Proc.devRef .tc main_arg2) = _; generalize W9 m ρ c = X; after_results)
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := (by show StableHlo.after hostOps2 (W6 m ρ c) (Proc.devRef .tc main_arg2) = _; generalize W6 m ρ c = X; after_results)
    _ = W5 m ρ c (Proc.devRef .tc main_arg2) := W6_of_ne m ρ c main_arg2 (by decide)
    _ = W4 m ρ c (Proc.devRef .tc main_arg2) := (by show StableHlo.after hostOps1 (W4 m ρ c) (Proc.devRef .tc main_arg2) = _; generalize W4 m ρ c = X; after_results)
    _ = W3 m ρ c (Proc.devRef .tc main_arg2) := W4_of_ne m ρ c main_arg2 (by decide)
    _ = W2 m ρ c (Proc.devRef .tc main_arg2) := (by show StableHlo.after hostOps0_2 (W2 m ρ c) (Proc.devRef .tc main_arg2) = _; generalize W2 m ρ c = X; after_results)
    _ = W1 m ρ c (Proc.devRef .tc main_arg2) := (by show StableHlo.after hostOps0_1 (W1 m ρ c) (Proc.devRef .tc main_arg2) = _; generalize W1 m ρ c = X; after_results)
    _ = W0 m ρ c (Proc.devRef .tc main_arg2) := (by show StableHlo.after hostOps0 (W0 m ρ c) (Proc.devRef .tc main_arg2) = _; generalize W0 m ρ c = X; after_results)
    _ = m ((c : Thread nD τ).loc main_arg2) := rfl

theorem W13_arg8 : W13 m ρ c (Proc.devRef .tc main_arg8) = m ((c : Thread nD τ).loc main_arg8) :=
  calc W13 m ρ c (Proc.devRef .tc main_arg8)
    _ = W12 m ρ c (Proc.devRef .tc main_arg8) := W13_of_ne m ρ c main_arg8 (by decide)
    _ = W11 m ρ c (Proc.devRef .tc main_arg8) := (by show StableHlo.after hostOps5 (W11 m ρ c) (Proc.devRef .tc main_arg8) = _; generalize W11 m ρ c = X; after_results)
    _ = W10 m ρ c (Proc.devRef .tc main_arg8) := W11_of_ne m ρ c main_arg8 (by decide)
    _ = W9 m ρ c (Proc.devRef .tc main_arg8) := (by show StableHlo.after hostOps4 (W9 m ρ c) (Proc.devRef .tc main_arg8) = _; generalize W9 m ρ c = X; after_results)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := (by show StableHlo.after hostOps2 (W6 m ρ c) (Proc.devRef .tc main_arg8) = _; generalize W6 m ρ c = X; after_results)
    _ = W5 m ρ c (Proc.devRef .tc main_arg8) := W6_of_ne m ρ c main_arg8 (by decide)
    _ = W4 m ρ c (Proc.devRef .tc main_arg8) := (by show StableHlo.after hostOps1 (W4 m ρ c) (Proc.devRef .tc main_arg8) = _; generalize W4 m ρ c = X; after_results)
    _ = W3 m ρ c (Proc.devRef .tc main_arg8) := W4_of_ne m ρ c main_arg8 (by decide)
    _ = W2 m ρ c (Proc.devRef .tc main_arg8) := (by show StableHlo.after hostOps0_2 (W2 m ρ c) (Proc.devRef .tc main_arg8) = _; generalize W2 m ρ c = X; after_results)
    _ = W1 m ρ c (Proc.devRef .tc main_arg8) := (by show StableHlo.after hostOps0_1 (W1 m ρ c) (Proc.devRef .tc main_arg8) = _; generalize W1 m ρ c = X; after_results)
    _ = W0 m ρ c (Proc.devRef .tc main_arg8) := (by show StableHlo.after hostOps0 (W0 m ρ c) (Proc.devRef .tc main_arg8) = _; generalize W0 m ρ c = X; after_results)
    _ = m ((c : Thread nD τ).loc main_arg8) := rfl

/-! ## After the last host stretch: the per-graph mean, and the head's bias as a row -/

theorem W14_v70 : W14 m ρ c (Proc.devRef .tc main_v70) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps6 (W13 m ρ c) (Proc.devRef .tc main_v70) = _
  have e0 := W13_arg2 m ρ c; have e1 := W13_v58 m ρ c
  generalize W13 m ρ c = X at e0 e1 ⊢
  after_results
  rw [e0, e1]
  rfl

theorem W14_v71 : W14 m ρ c (Proc.devRef .tc main_v71) = shapeCast S1x2 (m ((c : Thread nD τ).loc main_arg8)) shapeCasts_S2_S1x2 := by
  show StableHlo.after hostOps6 (W13 m ρ c) (Proc.devRef .tc main_v71) = _
  have e0 := W13_arg8 m ρ c
  generalize W13 m ρ c = X at e0 ⊢
  after_results
  rw [e0]
  rfl

theorem W14_arg7 : W14 m ρ c (Proc.devRef .tc main_arg7) = m ((c : Thread nD τ).loc main_arg7) :=
  calc W14 m ρ c (Proc.devRef .tc main_arg7)
    _ = W13 m ρ c (Proc.devRef .tc main_arg7) := (by show StableHlo.after hostOps6 (W13 m ρ c) (Proc.devRef .tc main_arg7) = _; generalize W13 m ρ c = X; after_results)
    _ = W12 m ρ c (Proc.devRef .tc main_arg7) := W13_of_ne m ρ c main_arg7 (by decide)
    _ = W11 m ρ c (Proc.devRef .tc main_arg7) := (by show StableHlo.after hostOps5 (W11 m ρ c) (Proc.devRef .tc main_arg7) = _; generalize W11 m ρ c = X; after_results)
    _ = W10 m ρ c (Proc.devRef .tc main_arg7) := W11_of_ne m ρ c main_arg7 (by decide)
    _ = W9 m ρ c (Proc.devRef .tc main_arg7) := (by show StableHlo.after hostOps4 (W9 m ρ c) (Proc.devRef .tc main_arg7) = _; generalize W9 m ρ c = X; after_results)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := (by show StableHlo.after hostOps2 (W6 m ρ c) (Proc.devRef .tc main_arg7) = _; generalize W6 m ρ c = X; after_results)
    _ = W5 m ρ c (Proc.devRef .tc main_arg7) := W6_of_ne m ρ c main_arg7 (by decide)
    _ = W4 m ρ c (Proc.devRef .tc main_arg7) := (by show StableHlo.after hostOps1 (W4 m ρ c) (Proc.devRef .tc main_arg7) = _; generalize W4 m ρ c = X; after_results)
    _ = W3 m ρ c (Proc.devRef .tc main_arg7) := W4_of_ne m ρ c main_arg7 (by decide)
    _ = W2 m ρ c (Proc.devRef .tc main_arg7) := (by show StableHlo.after hostOps0_2 (W2 m ρ c) (Proc.devRef .tc main_arg7) = _; generalize W2 m ρ c = X; after_results)
    _ = W1 m ρ c (Proc.devRef .tc main_arg7) := (by show StableHlo.after hostOps0_1 (W1 m ρ c) (Proc.devRef .tc main_arg7) = _; generalize W1 m ρ c = X; after_results)
    _ = W0 m ρ c (Proc.devRef .tc main_arg7) := (by show StableHlo.after hostOps0 (W0 m ρ c) (Proc.devRef .tc main_arg7) = _; generalize W0 m ρ c = X; after_results)
    _ = m ((c : Thread nD τ).loc main_arg7) := rfl

/-! ## After region 6: the result -/

/-- The kernel program's result buffer at the last boundary is the reference's last stage of the argument arrays. -/
theorem W15_v72 : W15 m ρ c (Proc.devRef .tc main_v72) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W15_arr m ρ c 3).trans ((Region6.arr (V14 m ρ) c).trans ?_)
  show Region6.head (W14 m ρ c (Proc.devRef .tc main_v70)) (W14 m ρ c (Proc.devRef .tc main_arg7)) (W14 m ρ c (Proc.devRef .tc main_v71)) = _
  rw [W14_v70, W14_arg7, W14_v71]
  exact Cert.Bridge.head_bridge (by decide) _ rfl rfl rfl rfl rfl rfl _ _ _ _ _ _

end Cert.KernelIdeal.Fold

end
-- ==== Proof.lean ====
/-
  Two graph-convolution layers, a mean over each graph's nodes and a linear head, computed two ways.

  Both programs build the same source and target index arrays (the edges followed by one self-loop per node), count
  each node's incoming edges, take the inverse square root of the count where it is positive and zero elsewhere, and
  give edge e the weight  d(src e) · d(dst e).  A layer multiplies the node features by a weight matrix, gathers the
  product's rows along the edges, scales row e by the weight of e, sums the scaled rows into the rows the edges land
  in, adds a bias row and cuts the result below at zero.  After two layers the rows of each graph are summed and divided
  by the larger of the graph's node count and one, and the pooled matrix is multiplied by a 128 × 2 matrix and shifted
  by a bias row.

  The reference does all of this with whole-array host operations.  The kernel program keeps the index arithmetic,
  the gathers and the scatter-sums as the same host operations and moves four pieces into tiled regions: the two
  matrix products (twenty blocks of 5000 rows; both operands are first narrowed to a 16-bit format, which is the
  identity on exact values, and the product is accumulated into zeros), the per-edge scaling (170 blocks of 10000
  rows, the weights passed as a 1700000 × 1 column), the bias and the cut at zero (twenty blocks of 5000 rows, the bias
  passed as a 1 × 128 row), and the head (one block).  Every region's blocks tile its result array and each block is
  the restriction of one whole-array function, so a region leaves the matrix product, the row scaling, the biased and
  cut array, or the product plus bias, of the arrays it found.  Each of these is the reference's own operation on the
  same arrays: a sum over k of x (r, k) · w (k, q) is the host product at (r, q); a vector reshaped to a column or a
  row reads the same entry as the vector broadcast to that column or row.  No sum is regrouped and no factor is moved
  across a sum, so the equality holds on all extended reals and the finiteness of the inputs is not used.

  Buffer by buffer, at every boundary between a host stretch and a region, the kernel program's contents are therefore
  the reference's stage of the same arguments, and the two results are equal.  The frames of the two kernel programs
  are the generated ones; the reference's frame is its run with the result dropped; no operation was rewritten by the
  idealization, so there is nothing to preserve.
-/
import proofs.«111700_j20091857011065_1_alg».proof.Defs
import proofs.«111700_j20091857011065_1_alg».proof.Proof.Gen.Kernel.Frame
import proofs.«111700_j20091857011065_1_alg».proof.Proof.Gen.KernelIdeal.Frame
import proofs.«111700_j20091857011065_1_alg».proof.Proof.Gen.Pre_finite_inputs
import proofs.«111700_j20091857011065_1_alg».proof.Proof.KRun
import proofs.«111700_j20091857011065_1_alg».proof.Proof.FoldC
import proofs.«111700_j20091857011065_1_alg».proof.Proof.RefRun
import proofs.«111700_j20091857011065_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the nine argument arrays. -/
theorem algebraic : Cert.algebraic_KernelIdeal_ReferenceIdeal := by
  intro m ρ m' ρ' _ hagree
  refine ⟨fun c => Cert.ReferenceIdeal.Read.val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.W15_v72 m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v81_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
